-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S2x512x64 : Shape := ⟨3, ![2, 512, 64]⟩
abbrev S512x64 : Shape := ⟨2, ![512, 64]⟩
abbrev S512x2048 : Shape := ⟨2, ![512, 2048]⟩
abbrev S64x2048 : Shape := ⟨2, ![64, 2048]⟩
abbrev S2048x512 : Shape := ⟨2, ![2048, 512]⟩
abbrev S2048x64 : Shape := ⟨2, ![2048, 64]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S2x512x64 : S_.BroadcastsInDim S2x512x64 (![] : Fin 0 → Fin S2x512x64.rank)
  reducesTo_S2x512x64_S_d0_1_2 : S2x512x64.ReducesTo [0, 1, 2] S_
  bcast_S_S512x64 : S_.BroadcastsInDim S512x64 (![] : Fin 0 → Fin S512x64.rank)
  reducesTo_S512x64_S_d0_1 : S512x64.ReducesTo [0, 1] S_
  bcast_S_S512x2048 : S_.BroadcastsInDim S512x2048 (![] : Fin 0 → Fin S512x2048.rank)
  reducesTo_S512x2048_S_d0_1 : S512x2048.ReducesTo [0, 1] S_
  bcast_S_S64x2048 : S_.BroadcastsInDim S64x2048 (![] : Fin 0 → Fin S64x2048.rank)
  reducesTo_S64x2048_S_d0_1 : S64x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part2 {F : FTy → Type} [FloatOps F] (main_arg7 : FVec F S2048x64 .f32) (main_v33 : IVec S_ 1) : IVec S_ 1 :=
  let main_v34 : FVec F S2048x64 .f32 := Host.absf main_arg7
  let main_cst_12 : FVec F S_ .f32 := constant S_ .f32 0x7F800000#32
  let main_v35 : FVec F S2048x64 .f32 := broadcastInDim S2048x64 ![] bcast_S_S2048x64 main_cst_12
  let main_v36 : IVec S2048x64 1 := cmpf .olt main_v34 main_v35
  let main_c_13 : IVec S_ 1 := constantI S_ 1 1#1
  let main_v37 : IVec S_ 1 := (fun x v => Host.reduce IntOp.andi x v reducesTo_S2048x64_S_d0_1 h_S_) main_v36 main_c_13
  let main_v38 : IVec S_ 1 := andi main_v33 main_v37
  main_v38

def fn_part1 {F : FTy → Type} [FloatOps F] (main_arg4 : FVec F S64x2048 .f32) (main_arg5 : FVec F S64x2048 .f32) (main_arg6 : FVec F S2048x512 .f32) (main_arg7 : FVec F S2048x64 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S64x2048 .f32 := Host.absf main_arg4
  let main_cst_6 : FVec F S_ .f32 := constant S_ .f32 0x7F800000#32
  let main_v20 : FVec F S64x2048 .f32 := broadcastInDim S64x2048 ![] bcast_S_S64x2048 main_cst_6
  let main_v21 : IVec S64x2048 1 := cmpf .olt main_v19 main_v20
  let main_c_7 : IVec S_ 1 := constantI S_ 1 1#1
  let main_v22 : IVec S_ 1 := (fun x v => Host.reduce IntOp.andi x v reducesTo_S64x2048_S_d0_1 h_S_) main_v21 main_c_7
  let main_v23 : IVec S_ 1 := andi main_v18 main_v22
  let main_v24 : FVec F S64x2048 .f32 := Host.absf main_arg5
  let main_cst_8 : FVec F S_ .f32 := constant S_ .f32 0x7F800000#32
  let main_v25 : FVec F S64x2048 .f32 := broadcastInDim S64x2048 ![] bcast_S_S64x2048 main_cst_8
  let main_v26 : IVec S64x2048 1 := cmpf .olt main_v24 main_v25
  let main_c_9 : IVec S_ 1 := constantI S_ 1 1#1
  let main_v27 : IVec S_ 1 := (fun x v => Host.reduce IntOp.andi x v reducesTo_S64x2048_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  fn_part2 (F := F) main_arg7 main_v33

def fn {F : FTy → Type} [FloatOps F] (main_arg0 : FVec F S2x512x512 .f32) (main_arg1 : FVec F S2x512x64 .f32) (main_arg2 : FVec F S512x64 .f32) (main_arg3 : FVec F S512x2048 .f32) (main_arg4 : FVec F S64x2048 .f32) (main_arg5 : FVec F S64x2048 .f32) (main_arg6 : FVec F S2048x512 .f32) (main_arg7 : FVec F S2048x64 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S2x512x64 .f32 := Host.absf main_arg1
  let main_cst_0 : FVec F S_ .f32 := constant S_ .f32 0x7F800000#32
  let main_v5 : FVec F S2x512x64 .f32 := broadcastInDim S2x512x64 ![] bcast_S_S2x512x64 main_cst_0
  let main_v6 : IVec S2x512x64 1 := cmpf .olt main_v4 main_v5
  let main_c_1 : IVec S_ 1 := constantI S_ 1 1#1
  let main_v7 : IVec S_ 1 := (fun x v => Host.reduce IntOp.andi x v reducesTo_S2x512x64_S_d0_1_2 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_v13 main_v16
-- ==== Kernel.lean ====
abbrev S2x512x512 : Shape := ⟨3, ![2, 512, 512]⟩
abbrev S2x512x64 : Shape := ⟨3, ![2, 512, 64]⟩
abbrev S512x64 : Shape := ⟨2, ![512, 64]⟩
abbrev S512x2048 : Shape := ⟨2, ![512, 2048]⟩
abbrev S64x2048 : Shape := ⟨2, ![64, 2048]⟩
abbrev S2048x512 : Shape := ⟨2, ![2048, 512]⟩
abbrev S2048x64 : Shape := ⟨2, ![2048, 64]⟩
abbrev S1024x512 : Shape := ⟨2, ![1024, 512]⟩
abbrev S1024x64 : Shape := ⟨2, ![1024, 64]⟩
abbrev S1x512x64 : Shape := ⟨3, ![1, 512, 64]⟩
abbrev S256x512 : Shape := ⟨2, ![256, 512]⟩
abbrev S256x64 : Shape := ⟨2, ![256, 64]⟩
abbrev S64x512 : Shape := ⟨2, ![64, 512]⟩
abbrev S512x512 : Shape := ⟨2, ![512, 512]⟩
abbrev S256x1 : Shape := ⟨2, ![256, 1]⟩
abbrev S1x512 : Shape := ⟨2, ![1, 512]⟩

abbrev nBuf : Space → Nat
  | .hbm => 18
  | .vmem => 22
  | .smem => 0
  | _ => 0

abbrev bufTy : (tb : Table) → Fin (tcTables nBuf tb) → BufTy
  | .hbm, ⟨0, _⟩ => ⟨S2x512x512, .f32⟩
  | .hbm, ⟨1, _⟩ => ⟨S2x512x64, .f32⟩
  | .hbm, ⟨2, _⟩ => ⟨S512x64, .f32⟩
  | .hbm, ⟨3, _⟩ => ⟨S512x2048, .f32⟩
  | .hbm, ⟨4, _⟩ => ⟨S64x2048, .f32⟩
  | .hbm, ⟨5, _⟩ => ⟨S64x2048, .f32⟩
  | .hbm, ⟨6, _⟩ => ⟨S2048x512, .f32⟩
  | .hbm, ⟨7, _⟩ => ⟨S2048x64, .f32⟩
  | .hbm, ⟨8, _⟩ => ⟨S1024x512, .f32⟩
  | .hbm, ⟨9, _⟩ => ⟨S1024x64, .f32⟩
  | .hbm, ⟨10, _⟩ => ⟨S1x512x64, .f32⟩
  | .hbm, ⟨11, _⟩ => ⟨S2x512x64, .f32⟩
  | .hbm, ⟨12, _⟩ => ⟨S2x512x64, .f32⟩
  | .hbm, ⟨13, _⟩ => ⟨S1024x64, .f32⟩
  | .hbm, ⟨14, _⟩ => ⟨S1024x512, .f32⟩
  | .hbm, ⟨15, _⟩ => ⟨S1024x64, .f32⟩
  | .hbm, ⟨16, _⟩ => ⟨S2x512x512, .f32⟩
  | .hbm, ⟨17, _⟩ => ⟨S2x512x64, .f32⟩
  | .local _ .vmem, ⟨0, _⟩ => ⟨S256x512, .f32⟩
  | .local _ .vmem, ⟨1, _⟩ => ⟨S256x512, .f32⟩
  | .local _ .vmem, ⟨2, _⟩ => ⟨S256x64, .f32⟩
  | .local _ .vmem, ⟨3, _⟩ => ⟨S256x64, .f32⟩
  | .local _ .vmem, ⟨4, _⟩ => ⟨S256x64, .f32⟩
  | .local _ .vmem, ⟨5, _⟩ => ⟨S256x64, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x64, .f32⟩
  | .local _ .vmem, ⟨15, _⟩ => ⟨S512x64, .f32⟩
  | .local _ .vmem, ⟨16, _⟩ => ⟨S256x512, .f32⟩
  | .local _ .vmem, ⟨17, _⟩ => ⟨S256x512, .f32⟩
  | .local _ .vmem, ⟨18, _⟩ => ⟨S256x64, .f32⟩
  | .local _ .vmem, ⟨19, _⟩ => ⟨S256x64, .f32⟩
  | .local _ .vmem, ⟨20, _⟩ => ⟨S256x512, .f32⟩
  | .local _ .vmem, ⟨21, _⟩ => ⟨S256x64, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v675 : BitVec 1 := Scalar.cmpi .eq arg1 c3_i32
  let v676 : BitVec 32 := Scalar.extui v675
  let c0_i32_26 : BitVec 32 := 0#32
  let v677 : BitVec 1 := Scalar.cmpi .ne v676 c0_i32_26
  v677

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S2x512x512_S1024x512 : S2x512x512.ShapeCasts S1024x512
  shapeCasts_S2x512x64_S1024x64 : S2x512x64.ShapeCasts S1024x64
  bcast_S512x64_S1x512x64_1_2 : S512x64.BroadcastsInDim S1x512x64 (![1, 2] : Fin 2 → Fin S1x512x64.rank)
  bcast_S1x512x64_S2x512x64_0_1_2 : S1x512x64.BroadcastsInDim S2x512x64 (![0, 1, 2] : Fin 3 → Fin S2x512x64.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  slices_S256x64_o0_0_S256x1 : S256x64.Slices ![0, 0] S256x1
  slices_S64x512_o0_0_S1x512 : S64x512.Slices ![0, 0] S1x512
  broadcasts_S256x1_S256x512 : S256x1.Broadcasts S256x512
  broadcasts_S1x512_S256x512 : S1x512.Broadcasts S256x512
  slices_S256x64_o0_1_S256x1 : S256x64.Slices ![0, 1] S256x1
  slices_S64x512_o1_0_S1x512 : S64x512.Slices ![1, 0] S1x512
  slices_S256x64_o0_2_S256x1 : S256x64.Slices ![0, 2] S256x1
  slices_S64x512_o2_0_S1x512 : S64x512.Slices ![2, 0] S1x512
  slices_S256x64_o0_3_S256x1 : S256x64.Slices ![0, 3] S256x1
  slices_S64x512_o3_0_S1x512 : S64x512.Slices ![3, 0] S1x512
  slices_S256x64_o0_4_S256x1 : S256x64.Slices ![0, 4] S256x1
  slices_S64x512_o4_0_S1x512 : S64x512.Slices ![4, 0] S1x512
  slices_S256x64_o0_5_S256x1 : S256x64.Slices ![0, 5] S256x1
  slices_S64x512_o5_0_S1x512 : S64x512.Slices ![5, 0] S1x512
  slices_S256x64_o0_6_S256x1 : S256x64.Slices ![0, 6] S256x1
  slices_S64x512_o6_0_S1x512 : S64x512.Slices ![6, 0] S1x512
  slices_S256x64_o0_7_S256x1 : S256x64.Slices ![0, 7] S256x1
  slices_S64x512_o7_0_S1x512 : S64x512.Slices ![7, 0] S1x512
  slices_S256x64_o0_8_S256x1 : S256x64.Slices ![0, 8] S256x1
  slices_S64x512_o8_0_S1x512 : S64x512.Slices ![8, 0] S1x512
  slices_S256x64_o0_9_S256x1 : S256x64.Slices ![0, 9] S256x1
  slices_S64x512_o9_0_S1x512 : S64x512.Slices ![9, 0] S1x512
  slices_S256x64_o0_10_S256x1 : S256x64.Slices ![0, 10] S256x1
  slices_S64x512_o10_0_S1x512 : S64x512.Slices ![10, 0] S1x512
  slices_S256x64_o0_11_S256x1 : S256x64.Slices ![0, 11] S256x1
  slices_S64x512_o11_0_S1x512 : S64x512.Slices ![11, 0] S1x512
  slices_S256x64_o0_12_S256x1 : S256x64.Slices ![0, 12] S256x1
  slices_S64x512_o12_0_S1x512 : S64x512.Slices ![12, 0] S1x512
  slices_S256x64_o0_13_S256x1 : S256x64.Slices ![0, 13] S256x1
  slices_S64x512_o13_0_S1x512 : S64x512.Slices ![13, 0] S1x512
  slices_S256x64_o0_14_S256x1 : S256x64.Slices ![0, 14] S256x1
  slices_S64x512_o14_0_S1x512 : S64x512.Slices ![14, 0] S1x512
  slices_S256x64_o0_15_S256x1 : S256x64.Slices ![0, 15] S256x1
  slices_S64x512_o15_0_S1x512 : S64x512.Slices ![15, 0] S1x512
  slices_S256x64_o0_16_S256x1 : S256x64.Slices ![0, 16] S256x1
  slices_S64x512_o16_0_S1x512 : S64x512.Slices ![16, 0] S1x512
  slices_S256x64_o0_17_S256x1 : S256x64.Slices ![0, 17] S256x1
  slices_S64x512_o17_0_S1x512 : S64x512.Slices ![17, 0] S1x512
  slices_S256x64_o0_18_S256x1 : S256x64.Slices ![0, 18] S256x1
  slices_S64x512_o18_0_S1x512 : S64x512.Slices ![18, 0] S1x512
  slices_S256x64_o0_19_S256x1 : S256x64.Slices ![0, 19] S256x1
  slices_S64x512_o19_0_S1x512 : S64x512.Slices ![19, 0] S1x512
  slices_S256x64_o0_20_S256x1 : S256x64.Slices ![0, 20] S256x1
  slices_S64x512_o20_0_S1x512 : S64x512.Slices ![20, 0] S1x512
  slices_S256x64_o0_21_S256x1 : S256x64.Slices ![0, 21] S256x1
  slices_S64x512_o21_0_S1x512 : S64x512.Slices ![21, 0] S1x512
  slices_S256x64_o0_22_S256x1 : S256x64.Slices ![0, 22] S256x1
  slices_S64x512_o22_0_S1x512 : S64x512.Slices ![22, 0] S1x512
  slices_S256x64_o0_23_S256x1 : S256x64.Slices ![0, 23] S256x1
  slices_S64x512_o23_0_S1x512 : S64x512.Slices ![23, 0] S1x512
  slices_S256x64_o0_24_S256x1 : S256x64.Slices ![0, 24] S256x1
  slices_S64x512_o24_0_S1x512 : S64x512.Slices ![24, 0] S1x512
  slices_S256x64_o0_25_S256x1 : S256x64.Slices ![0, 25] S256x1
  slices_S64x512_o25_0_S1x512 : S64x512.Slices ![25, 0] S1x512
  slices_S256x64_o0_26_S256x1 : S256x64.Slices ![0, 26] S256x1
  slices_S64x512_o26_0_S1x512 : S64x512.Slices ![26, 0] S1x512
  slices_S256x64_o0_27_S256x1 : S256x64.Slices ![0, 27] S256x1
  slices_S64x512_o27_0_S1x512 : S64x512.Slices ![27, 0] S1x512
  slices_S256x64_o0_28_S256x1 : S256x64.Slices ![0, 28] S256x1
  slices_S64x512_o28_0_S1x512 : S64x512.Slices ![28, 0] S1x512
  slices_S256x64_o0_29_S256x1 : S256x64.Slices ![0, 29] S256x1
  slices_S64x512_o29_0_S1x512 : S64x512.Slices ![29, 0] S1x512
  slices_S256x64_o0_30_S256x1 : S256x64.Slices ![0, 30] S256x1
  slices_S64x512_o30_0_S1x512 : S64x512.Slices ![30, 0] S1x512
  slices_S256x64_o0_31_S256x1 : S256x64.Slices ![0, 31] S256x1
  slices_S64x512_o31_0_S1x512 : S64x512.Slices ![31, 0] S1x512
  slices_S256x64_o0_32_S256x1 : S256x64.Slices ![0, 32] S256x1
  slices_S64x512_o32_0_S1x512 : S64x512.Slices ![32, 0] S1x512
  slices_S256x64_o0_33_S256x1 : S256x64.Slices ![0, 33] S256x1
  slices_S64x512_o33_0_S1x512 : S64x512.Slices ![33, 0] S1x512
  slices_S256x64_o0_34_S256x1 : S256x64.Slices ![0, 34] S256x1
  slices_S64x512_o34_0_S1x512 : S64x512.Slices ![34, 0] S1x512
  slices_S256x64_o0_35_S256x1 : S256x64.Slices ![0, 35] S256x1
  slices_S64x512_o35_0_S1x512 : S64x512.Slices ![35, 0] S1x512
  slices_S256x64_o0_36_S256x1 : S256x64.Slices ![0, 36] S256x1
  slices_S64x512_o36_0_S1x512 : S64x512.Slices ![36, 0] S1x512
  slices_S256x64_o0_37_S256x1 : S256x64.Slices ![0, 37] S256x1
  slices_S64x512_o37_0_S1x512 : S64x512.Slices ![37, 0] S1x512
  slices_S256x64_o0_38_S256x1 : S256x64.Slices ![0, 38] S256x1
  slices_S64x512_o38_0_S1x512 : S64x512.Slices ![38, 0] S1x512
  slices_S256x64_o0_39_S256x1 : S256x64.Slices ![0, 39] S256x1
  slices_S64x512_o39_0_S1x512 : S64x512.Slices ![39, 0] S1x512
  slices_S256x64_o0_40_S256x1 : S256x64.Slices ![0, 40] S256x1
  slices_S64x512_o40_0_S1x512 : S64x512.Slices ![40, 0] S1x512
  slices_S256x64_o0_41_S256x1 : S256x64.Slices ![0, 41] S256x1
  slices_S64x512_o41_0_S1x512 : S64x512.Slices ![41, 0] S1x512
  slices_S256x64_o0_42_S256x1 : S256x64.Slices ![0, 42] S256x1
  slices_S64x512_o42_0_S1x512 : S64x512.Slices ![42, 0] S1x512
  slices_S256x64_o0_43_S256x1 : S256x64.Slices ![0, 43] S256x1
  slices_S64x512_o43_0_S1x512 : S64x512.Slices ![43, 0] S1x512
  slices_S256x64_o0_44_S256x1 : S256x64.Slices ![0, 44] S256x1
  slices_S64x512_o44_0_S1x512 : S64x512.Slices ![44, 0] S1x512
  slices_S256x64_o0_45_S256x1 : S256x64.Slices ![0, 45] S256x1
  slices_S64x512_o45_0_S1x512 : S64x512.Slices ![45, 0] S1x512
  slices_S256x64_o0_46_S256x1 : S256x64.Slices ![0, 46] S256x1
  slices_S64x512_o46_0_S1x512 : S64x512.Slices ![46, 0] S1x512
  slices_S256x64_o0_47_S256x1 : S256x64.Slices ![0, 47] S256x1
  slices_S64x512_o47_0_S1x512 : S64x512.Slices ![47, 0] S1x512
  slices_S256x64_o0_48_S256x1 : S256x64.Slices ![0, 48] S256x1
  slices_S64x512_o48_0_S1x512 : S64x512.Slices ![48, 0] S1x512
  slices_S256x64_o0_49_S256x1 : S256x64.Slices ![0, 49] S256x1
  slices_S64x512_o49_0_S1x512 : S64x512.Slices ![49, 0] S1x512
  slices_S256x64_o0_50_S256x1 : S256x64.Slices ![0, 50] S256x1
  slices_S64x512_o50_0_S1x512 : S64x512.Slices ![50, 0] S1x512
  slices_S256x64_o0_51_S256x1 : S256x64.Slices ![0, 51] S256x1
  slices_S64x512_o51_0_S1x512 : S64x512.Slices ![51, 0] S1x512
  slices_S256x64_o0_52_S256x1 : S256x64.Slices ![0, 52] S256x1
  slices_S64x512_o52_0_S1x512 : S64x512.Slices ![52, 0] S1x512
  slices_S256x64_o0_53_S256x1 : S256x64.Slices ![0, 53] S256x1
  slices_S64x512_o53_0_S1x512 : S64x512.Slices ![53, 0] S1x512
  slices_S256x64_o0_54_S256x1 : S256x64.Slices ![0, 54] S256x1
  slices_S64x512_o54_0_S1x512 : S64x512.Slices ![54, 0] S1x512
  slices_S256x64_o0_55_S256x1 : S256x64.Slices ![0, 55] S256x1
  slices_S64x512_o55_0_S1x512 : S64x512.Slices ![55, 0] S1x512
  slices_S256x64_o0_56_S256x1 : S256x64.Slices ![0, 56] S256x1
  slices_S64x512_o56_0_S1x512 : S64x512.Slices ![56, 0] S1x512
  slices_S256x64_o0_57_S256x1 : S256x64.Slices ![0, 57] S256x1
  slices_S64x512_o57_0_S1x512 : S64x512.Slices ![57, 0] S1x512
  slices_S256x64_o0_58_S256x1 : S256x64.Slices ![0, 58] S256x1
  slices_S64x512_o58_0_S1x512 : S64x512.Slices ![58, 0] S1x512
  slices_S256x64_o0_59_S256x1 : S256x64.Slices ![0, 59] S256x1
  slices_S64x512_o59_0_S1x512 : S64x512.Slices ![59, 0] S1x512
  slices_S256x64_o0_60_S256x1 : S256x64.Slices ![0, 60] S256x1
  slices_S64x512_o60_0_S1x512 : S64x512.Slices ![60, 0] S1x512
  slices_S256x64_o0_61_S256x1 : S256x64.Slices ![0, 61] S256x1
  slices_S64x512_o61_0_S1x512 : S64x512.Slices ![61, 0] S1x512
  slices_S256x64_o0_62_S256x1 : S256x64.Slices ![0, 62] S256x1
  slices_S64x512_o62_0_S1x512 : S64x512.Slices ![62, 0] S1x512
  slices_S256x64_o0_63_S256x1 : S256x64.Slices ![0, 63] S256x1
  slices_S64x512_o63_0_S1x512 : S64x512.Slices ![63, 0] S1x512
  inb_S512x64_S512x64_0_0 : ∀ a, (![0, 0] : Fin 2 → Nat) a + S512x64.size a ≤ S512x64.size a
  h_S512x64 : 0 < S512x64.numel
  shapeCasts_S1024x512_S2x512x512 : S1024x512.ShapeCasts S2x512x512
  shapeCasts_S1024x64_S2x512x64 : S1024x64.ShapeCasts S2x512x64
  dot_S256x512_S512x512_S256x512_1_0_0_1_n_n_wf : DotDims.WF S256x512 S512x512 S256x512 [1] [0] [0] [1] [] []
  dot_S256x512_S512x64_S256x64_1_0_0_1_n_n_wf : DotDims.WF S256x512 S512x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S1024x64.size a
  hwx0_1 : ∀ i : grid0.Coords, EltTy.bits .f32 = 32 ∨ (Rect.block (s := S1024x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S1024x64.size a
  hwx0_2 : ∀ i : grid0.Coords, EltTy.bits .f32 = 32 ∨ (Rect.block (s := S1024x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x2048.size a
  hwx0_3 : ∀ i : grid0.Coords, EltTy.bits .f32 = 32 ∨ (Rect.block (s := S64x2048) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x2048.size a
  hwx0_4 : ∀ i : grid0.Coords, EltTy.bits .f32 = 32 ∨ (Rect.block (s := S64x2048) S64x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x2048.size a
  hwx0_5 : ∀ i : grid0.Coords, EltTy.bits .f32 = 32 ∨ (Rect.block (s := S512x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S2048x512.size a
  hwx0_6 : ∀ i : grid0.Coords, EltTy.bits .f32 = 32 ∨ (Rect.block (s := S2048x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x64.size a ≤ S2048x64.size a
  hwx0_7 : ∀ i : grid0.Coords, EltTy.bits .f32 = 32 ∨ (Rect.block (s := S2048x64) S512x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S1024x512.size a
  hwx0_8 : ∀ i : grid0.Coords, EltTy.bits .f32 = 32 ∨ (Rect.block (s := S1024x512) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x64.size a ≤ S1024x64.size a
  hwx0_9 : ∀ i : grid0.Coords, EltTy.bits .f32 = 32 ∨ (Rect.block (s := S1024x64) S256x64.size (cc0_transform_9 i) (hinb0_9 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S256x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S256x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2x512x512 : Shape := ⟨3, ![2, 512, 512]⟩
abbrev S2x512x64 : Shape := ⟨3, ![2, 512, 64]⟩
abbrev S512x64 : Shape := ⟨2, ![512, 64]⟩
abbrev S512x2048 : Shape := ⟨2, ![512, 2048]⟩
abbrev S64x2048 : Shape := ⟨2, ![64, 2048]⟩
abbrev S2048x512 : Shape := ⟨2, ![2048, 512]⟩
abbrev S2048x64 : Shape := ⟨2, ![2048, 64]⟩
abbrev S1x512x64 : Shape := ⟨3, ![1, 512, 64]⟩
abbrev S2x512x64x1 : Shape := ⟨4, ![2, 512, 64, 1]⟩
abbrev S1x1x64x2048 : Shape := ⟨4, ![1, 1, 64, 2048]⟩
abbrev S2x512x64x2048 : Shape := ⟨4, ![2, 512, 64, 2048]⟩
abbrev S_ : Shape := ⟨0, ![]⟩
abbrev S2x512x2048 : Shape := ⟨3, ![2, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2x512x64, .f32⟩
  | .hbm, ⟨2, _⟩ => ⟨S512x64, .f32⟩
  | .hbm, ⟨3, _⟩ => ⟨S512x2048, .f32⟩
  | .hbm, ⟨4, _⟩ => ⟨S64x2048, .f32⟩
  | .hbm, ⟨5, _⟩ => ⟨S64x2048, .f32⟩
  | .hbm, ⟨6, _⟩ => ⟨S2048x512, .f32⟩
  | .hbm, ⟨7, _⟩ => ⟨S2048x64, .f32⟩
  | .hbm, ⟨8, _⟩ => ⟨S1x512x64, .f32⟩
  | .hbm, ⟨9, _⟩ => ⟨S2x512x64, .f32⟩
  | .hbm, ⟨10, _⟩ => ⟨S2x512x64, .f32⟩
  | .hbm, ⟨11, _⟩ => ⟨S2x512x64x1, .f32⟩
  | .hbm, ⟨12, _⟩ => ⟨S1x1x64x2048, .f32⟩
  | .hbm, ⟨13, _⟩ => ⟨S2x512x64x2048, .f32⟩
  | .hbm, ⟨14, _⟩ => ⟨S2x512x64x2048, .f32⟩
  | .hbm, ⟨15, _⟩ => ⟨S2x512x64x2048, .f32⟩
  | .hbm, ⟨16, _⟩ => ⟨S1x1x64x2048, .f32⟩
  | .hbm, ⟨17, _⟩ => ⟨S2x512x64x2048, .f32⟩
  | .hbm, ⟨18, _⟩ => ⟨S2x512x64x2048, .f32⟩
  | .hbm, ⟨19, _⟩ => ⟨S2x512x64x2048, .f32⟩
  | .hbm, ⟨20, _⟩ => ⟨S_, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S2x512x2048, .f32⟩
  | .hbm, ⟨27, _⟩ => ⟨S2x512x512, .f32⟩
  | .hbm, ⟨28, _⟩ => ⟨S2x512x512, .f32⟩
  | .hbm, ⟨29, _⟩ => ⟨S2x512x64, .f32⟩
  | .hbm, ⟨30, _⟩ => ⟨S2x512x64, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  bcast_S512x64_S1x512x64_1_2 : S512x64.BroadcastsInDim S1x512x64 (![1, 2] : Fin 2 → Fin S1x512x64.rank)
  bcast_S1x512x64_S2x512x64_0_1_2 : S1x512x64.BroadcastsInDim S2x512x64 (![0, 1, 2] : Fin 3 → Fin S2x512x64.rank)
  bcast_S2x512x64_S2x512x64x1_0_1_2 : S2x512x64.BroadcastsInDim S2x512x64x1 (![0, 1, 2] : Fin 3 → Fin S2x512x64x1.rank)
  bcast_S64x2048_S1x1x64x2048_2_3 : S64x2048.BroadcastsInDim S1x1x64x2048 (![2, 3] : Fin 2 → Fin S1x1x64x2048.rank)
  bcast_S2x512x64x1_S2x512x64x2048_0_1_2_3 : S2x512x64x1.BroadcastsInDim S2x512x64x2048 (![0, 1, 2, 3] : Fin 4 → Fin S2x512x64x2048.rank)
  bcast_S1x1x64x2048_S2x512x64x2048_0_1_2_3 : S1x1x64x2048.BroadcastsInDim S2x512x64x2048 (![0, 1, 2, 3] : Fin 4 → Fin S2x512x64x2048.rank)
  reducesTo_S2x512x64x2048_S2x512x2048_d2 : S2x512x64x2048.ReducesTo [2] S2x512x2048
  h_S_ : 0 < S_.numel
  bcast_S_S2x512x2048 : S_.BroadcastsInDim S2x512x2048 (![] : Fin 0 → Fin S2x512x2048.rank)
  dot_S2x512x512_S512x2048_S2x512x2048_2_0_01_1_n_n_wf : DotDims.WF S2x512x512 S512x2048 S2x512x2048 [2] [0] [0, 1] [1] [] []
  dot_S2x512x2048_S2048x512_S2x512x512_2_0_01_1_n_n_wf : DotDims.WF S2x512x2048 S2048x512 S2x512x512 [2] [0] [0, 1] [1] [] []
  dot_S2x512x2048_S2048x64_S2x512x64_2_0_01_1_n_n_wf : DotDims.WF S2x512x2048 S2048x64 S2x512x64 [2] [0] [0, 1] [1] [] []

variable [Facts₀]

def dot_S2x512x512_S512x2048_S2x512x2048_2_0_01_1_n_n : DotDims S2x512x512 S512x2048 S2x512x2048 where
  lhsContracting := [2]
  rhsContracting := [0]
  lhsNonContracting := [0, 1]
  rhsNonContracting := [1]
  lhsBatch := []
  rhsBatch := []
  wf := dot_S2x512x512_S512x2048_S2x512x2048_2_0_01_1_n_n_wf
def dot_S2x512x2048_S2048x512_S2x512x512_2_0_01_1_n_n : DotDims S2x512x2048 S2048x512 S2x512x512 where
  lhsContracting := [2]
  rhsContracting := [0]
  lhsNonContracting := [0, 1]
  rhsNonContracting := [1]
  lhsBatch := []
  rhsBatch := []
  wf := dot_S2x512x2048_S2048x512_S2x512x512_2_0_01_1_n_n_wf
def dot_S2x512x2048_S2048x64_S2x512x64_2_0_01_1_n_n : DotDims S2x512x2048 S2048x64 S2x512x64 where
  lhsContracting := [2]
  rhsContracting := [0]
  lhsNonContracting := [0, 1]
  rhsNonContracting := [1]
  lhsBatch := []
  rhsBatch := []
  wf := dot_S2x512x2048_S2048x64_S2x512x64_2_0_01_1_n_n_wf

class Facts : Prop extends Facts₀ where

variable [Facts]
-- ==== Proof.KChain.lean ====
/-
  The body's arithmetic at one grid point, named once (for any float instance).

  The body walks the 64 phases one after the other: `phaseSum k` is the running sum of cosines after the
  store-free stretch that ends in payload `k` of the generated skeleton (phases 0–1 and 2 start it, then five
  more phases and one single phase per stretch).  `gateBlk` is the scaled gate of the point's
  [256, 512] tile, `stepReal` / `stepImag` what the point leaves in the two accumulators given what it found there.
-/
import proofs.«112866_j16827681866028_1_alg».proof.Proof.Gen.KernelIdeal.Skeleton

noncomputable section

namespace Cert.KernelIdeal.Body

open Cert.KernelIdeal Cert.KernelIdeal.Gen Idealize.ShloMosaic

variable {F : FTy → Type} [FloatOps F]
variable (x2 : Vec F S256x64 .f32) (x3 x4 : Vec F S64x512 .f32)

/-- Phases 0 … 7 summed (from zero). -/
def phaseSum9 : FVec F S256x512 .f32 := k0_pay9 (k0_pay6 x2) x3 x4 (k0_pay7 x2 x3 x4) (k0_pay8 x2 x3 x4)
/-- Phases 0 … 13 summed. -/
def phaseSum11 : FVec F S256x512 .f32 := k0_pay11 (k0_pay6 x2) x3 x4 (phaseSum9 x2 x3 x4) (k0_pay10 (k0_pay6 x2) x3 x4)
/-- Phases 0 … 19 summed. -/
def phaseSum13 : FVec F S256x512 .f32 := k0_pay13 (k0_pay6 x2) x3 x4 (phaseSum11 x2 x3 x4) (k0_pay12 (k0_pay6 x2) x3 x4)
/-- Phases 0 … 25 summed. -/
def phaseSum15 : FVec F S256x512 .f32 := k0_pay15 (k0_pay6 x2) x3 x4 (phaseSum13 x2 x3 x4) (k0_pay14 (k0_pay6 x2) x3 x4)
/-- Phases 0 … 31 summed. -/
def phaseSum17 : FVec F S256x512 .f32 := k0_pay17 (k0_pay6 x2) x3 x4 (phaseSum15 x2 x3 x4) (k0_pay16 (k0_pay6 x2) x3 x4)
/-- Phases 0 … 37 summed. -/
def phaseSum19 : FVec F S256x512 .f32 := k0_pay19 (k0_pay6 x2) x3 x4 (phaseSum17 x2 x3 x4) (k0_pay18 (k0_pay6 x2) x3 x4)
/-- Phases 0 … 43 summed. -/
def phaseSum21 : FVec F S256x512 .f32 := k0_pay21 (k0_pay6 x2) x3 x4 (phaseSum19 x2 x3 x4) (k0_pay20 (k0_pay6 x2) x3 x4)
/-- Phases 0 … 49 summed. -/
def phaseSum23 : FVec F S256x512 .f32 := k0_pay23 (k0_pay6 x2) x3 x4 (phaseSum21 x2 x3 x4) (k0_pay22 (k0_pay6 x2) x3 x4)
/-- Phases 0 … 55 summed. -/
def phaseSum25 : FVec F S256x512 .f32 := k0_pay25 (k0_pay6 x2) x3 x4 (phaseSum23 x2 x3 x4) (k0_pay24 (k0_pay6 x2) x3 x4)
/-- Phases 0 … 61 summed. -/
def phaseSum27 : FVec F S256x512 .f32 := k0_pay27 (k0_pay6 x2) x3 x4 (phaseSum25 x2 x3 x4) (k0_pay26 (k0_pay6 x2) x3 x4)

/-- The point's gate tile: all 64 phases summed, times the scale. -/
def gateBlk : FVec F S256x512 .f32 := k0_pay29 (k0_pay6 x2) x3 x4 (phaseSum27 x2 x3 x4) (k0_pay28 (k0_pay6 x2) x3 x4)

/-- What the point leaves in the real accumulator that held `acc`: `acc + ((x · Wup) ∘ gate) · Wr` on the point's tiles. -/
def stepReal (x0 : Vec F S256x512 .f32) (x5 x6 : Vec F S512x512 .f32) (acc : Vec F S256x512 .f32) : FVec F S256x512 .f32 :=
  k0_pay30 (k0_pay5 x0 x5) (k0_pay6 x2) x3 x4 (phaseSum27 x2 x3 x4) (k0_pay28 (k0_pay6 x2) x3 x4) x6 acc

/-- What the point leaves in the imaginary accumulator that held `acc`: `acc + gate · Wi` on the point's tiles. -/
def stepImag (x7 : Vec F S512x64 .f32) (acc : Vec F S256x64 .f32) : FVec F S256x64 .f32 :=
  k0_pay31 (k0_pay6 x2) x3 x4 (phaseSum27 x2 x3 x4) (k0_pay28 (k0_pay6 x2) x3 x4) x7 acc

theorem stepReal_eq (x0 : Vec F S256x512 .f32) (x5 x6 : Vec F S512x512 .f32) (acc : Vec F S256x512 .f32) :
    stepReal x2 x3 x4 x0 x5 x6 acc
      = shapeCast S256x512 (addf acc (matmul dot_S256x512_S512x512_S256x512_1_0_0_1_n_n none
          (truncf .bf16 (mulf (k0_pay5 x0 x5) (gateBlk x2 x3 x4)) bitsLt_bf16_f32) (truncf .bf16 x6 bitsLt_bf16_f32)
          (constant S256x512 .f32 0x00000000#32))) shapeCasts_S256x512_S256x512 := rfl

theorem stepImag_eq (x7 : Vec F S512x64 .f32) (acc : Vec F S256x64 .f32) :
    stepImag x2 x3 x4 x7 acc
      = shapeCast S256x64 (addf acc (matmul dot_S256x512_S512x64_S256x64_1_0_0_1_n_n none
          (truncf .bf16 (gateBlk x2 x3 x4) bitsLt_bf16_f32) (truncf .bf16 x7 bitsLt_bf16_f32)
          (constant S256x64 .f32 0x00000000#32))) shapeCasts_S256x64_S256x64 := rfl

end Cert.KernelIdeal.Body

end
-- ==== Proof.KPieces.lean ====
/-
  What one run of the body leaves behind, read back as values (for any float instance).

  The body has three control cases: at the first hidden block of a row tile it clears the two accumulators
  and then adds the block's contribution (A); at the middle blocks it only adds (B); at the last block it adds
  and then writes the two result tiles, residual plus accumulator (C).  Each lemma says that the buffer's
  final contents, assembled from the stores the run made, is the corresponding arithmetic of the point's input
  tiles: `stepReal` / `stepImag` of the accumulator found (zero after a clear), and for the results the
  residual added to the accumulator just stored.
-/
import proofs.«112866_j16827681866028_1_alg».proof.Proof.Gen.KernelIdeal.Frame
import proofs.«112866_j16827681866028_1_alg».proof.Proof.KChain
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.Body

variable {F : FTy → Type} [FloatOps F]

theorem hz : (![0, 0] : Fin 2 → Nat) = fun _ => 0 := funext fun a => by fin_cases a <;> rfl

/-- The cleared real accumulator. -/
abbrev zeroReal : FVec F S256x512 .f32 := k0_pay3 (F := F)
/-- The cleared imaginary accumulator. -/
abbrev zeroImag : FVec F S256x64 .f32 := k0_pay4 (F := F)

/-! ## A middle block: the accumulators found, plus the block's contribution -/

theorem real_B (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : ¬cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) (xs0 : Vec F S256x512 .f32) (xs1 : Vec F S256x64 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = stepReal x2 x3 x4 x0 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

theorem imag_B (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : ¬cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) (xs0 : Vec F S256x512 .f32) (xs1 : Vec F S256x64 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = stepImag x2 x3 x4 x7 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

/-! ## The first block: cleared, then the block's contribution -/

theorem real_A (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : cond0_0 i) (hc1 : ¬cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stepReal x2 x3 x4 x0 x5 x6 zeroReal := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x512) hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

theorem imag_A (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : cond0_0 i) (hc1 : ¬cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 = stepImag x2 x3 x4 x7 zeroImag := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S256x64) hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

/-! ## The last block: the contribution added, then the results written -/

theorem real_C (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) (xs0 : Vec F S256x512 .f32) (xs1 : Vec F S256x64 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = stepReal x2 x3 x4 x0 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

theorem imag_C (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) (xs0 : Vec F S256x512 .f32) (xs1 : Vec F S256x64 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = stepImag x2 x3 x4 x7 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

/-- The real result tile: the residual tile plus the accumulator just completed. -/
theorem outReal_C (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) (xs0 : Vec F S256x512 .f32) (xs1 : Vec F S256x64 .f32) :
    out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay1 x0 (stepReal x2 x3 x4 x0 x5 x6 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

/-- The imaginary result tile: the residual tile plus the accumulator just completed. -/
theorem outImag_C (c : Dev nD) (i : grid0.Coords) (arg2 : Memref sig .tc .vmem S256x512 .f32) (harg2 : arg2.IsWhole) (arg3 : Memref sig .tc .vmem S256x64 .f32) (harg3 : arg3.IsWhole) (arg4 : Memref sig .tc .vmem S256x64 .f32) (harg4 : arg4.IsWhole) (arg5 : Memref sig .tc .vmem S64x512 .f32) (harg5 : arg5.IsWhole) (arg6 : Memref sig .tc .vmem S64x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x64 .f32) (harg9 : arg9.IsWhole) (arg10 : Memref sig .tc .vmem S256x512 .f32) (harg10 : arg10.IsWhole) (arg11 : Memref sig .tc .vmem S256x64 .f32) (harg11 : arg11.IsWhole) (arg12 : Memref sig .tc .vmem S256x512 .f32) (harg12 : arg12.IsWhole) (arg13 : Memref sig .tc .vmem S256x64 .f32) (harg13 : arg13.IsWhole) (hc0 : ¬cond0_0 i) (hc1 : cond0_1 i) (x0 : Vec F S256x512 .f32) (x1 : Vec F S256x64 .f32) (x2 : Vec F S256x64 .f32) (x3 : Vec F S64x512 .f32) (x4 : Vec F S64x512 .f32) (x5 : Vec F S512x512 .f32) (x6 : Vec F S512x512 .f32) (x7 : Vec F S512x64 .f32) (xs0 : Vec F S256x512 .f32) (xs1 : Vec F S256x64 .f32) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 = k0_pay2 x1 (stepImag x2 x3 x4 x7 xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread,
    harg8.read_unread, harg9.read_unread, harg12.read_unread, harg13.read_unread, View.ld_unit_zero (S := S256x512) hz, View.ld_unit_zero (S := S256x64) hz,
    View.ld_unit_zero (S := S64x512) hz, View.ld_unit_zero (S := S512x512) hz, View.ld_unit_zero (S := S512x64) hz,
    View.readCov_unit_zero (S := S256x512) _ hz, View.readCov_unit_zero (S := S256x64) _ hz]
  rfl

end Cert.KernelIdeal.Pieces

end
-- ==== Proof.KBlocks.lean ====
/-
  The tiles a grid point works on, read at an entry of the arrays the region finds, and those arrays read at an
  entry of the program's arguments.

  Point `t` of the 4 × 4 grid is row tile `t / 4` and hidden block `t % 4`.  The row-blocked operands (the
  flattened real part, imaginary part and phases, [1024, ·]) give rows `256 (t / 4) + a`; the operands blocked along
  the hidden axis give hidden columns (or rows) `512 (t % 4) + b`.  Before the region the host flattens the two
  batch axes (row `r` of a flattened array is `(r / 512, r % 512)`) and forms the phases
  `x_imag[b, l, p] · pos_freq[l, p]`.
-/
import proofs.«112866_j16827681866028_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The eight input tiles of point `t`, at their literal types. -/
abbrev blk0 (c : Dev nD) (t : Fin cfg0.N) : Vec F S256x512 .f32 := iblk m c 0 t
abbrev blk1 (c : Dev nD) (t : Fin cfg0.N) : Vec F S256x64 .f32 := iblk m c 1 t
abbrev blk2 (c : Dev nD) (t : Fin cfg0.N) : Vec F S256x64 .f32 := iblk m c 2 t
abbrev blk3 (c : Dev nD) (t : Fin cfg0.N) : Vec F S64x512 .f32 := iblk m c 3 t
abbrev blk4 (c : Dev nD) (t : Fin cfg0.N) : Vec F S64x512 .f32 := iblk m c 4 t
abbrev blk5 (c : Dev nD) (t : Fin cfg0.N) : Vec F S512x512 .f32 := iblk m c 5 t
abbrev blk6 (c : Dev nD) (t : Fin cfg0.N) : Vec F S512x512 .f32 := iblk m c 6 t
abbrev blk7 (c : Dev nD) (t : Fin cfg0.N) : Vec F S512x64 .f32 := iblk m c 7 t

/-- The arrays the region finds, at their literal types. -/
abbrev arrXr (c : Dev nD) : Vec F S1024x512 .f32 := V m c main_v0
abbrev arrXi (c : Dev nD) : Vec F S1024x64 .f32 := V m c main_v1
abbrev arrT (c : Dev nD) : Vec F S1024x64 .f32 := V m c main_v5
abbrev arrW (c : Dev nD) : Vec F S64x2048 .f32 := V m c main_arg4
abbrev arrB (c : Dev nD) : Vec F S64x2048 .f32 := V m c main_arg5
abbrev arrWu (c : Dev nD) : Vec F S512x2048 .f32 := V m c main_arg3
abbrev arrWr (c : Dev nD) : Vec F S2048x512 .f32 := V m c main_arg6
abbrev arrWi (c : Dev nD) : Vec F S2048x64 .f32 := V m c main_arg7

/-- The program's arguments, at their literal types. -/
abbrev argXr (c : Dev nD) : Vec F S2x512x512 .f32 := m ((c : Thread nD τ).loc main_arg0)
abbrev argXi (c : Dev nD) : Vec F S2x512x64 .f32 := m ((c : Thread nD τ).loc main_arg1)
abbrev argPf (c : Dev nD) : Vec F S512x64 .f32 := m ((c : Thread nD τ).loc main_arg2)
abbrev argWu (c : Dev nD) : Vec F S512x2048 .f32 := m ((c : Thread nD τ).loc main_arg3)
abbrev argW (c : Dev nD) : Vec F S64x2048 .f32 := m ((c : Thread nD τ).loc main_arg4)
abbrev argB (c : Dev nD) : Vec F S64x2048 .f32 := m ((c : Thread nD τ).loc main_arg5)
abbrev argWr (c : Dev nD) : Vec F S2048x512 .f32 := m ((c : Thread nD τ).loc main_arg6)
abbrev argWi (c : Dev nD) : Vec F S2048x64 .f32 := m ((c : Thread nD τ).loc main_arg7)

/-- Row `256 (t / 4) + a` of the flattened batch: row `a` of point `t`'s row tile. -/
def rowOf (t : Fin cfg0.N) (a : Fin 256) : Fin 1024 :=
  ⟨256 * (t.val / 4) + a.val, by
    have h : t.val < 16 := lt_of_lt_of_eq t.isLt (show cfg0.N = 16 from N_0)
    have := a.isLt; omega⟩

/-- Hidden index `512 (t % 4) + b`: entry `b` of point `t`'s hidden block. -/
def colOf (t : Fin cfg0.N) (b : Fin 512) : Fin 2048 :=
  ⟨512 * (t.val % 4) + b.val, by have := b.isLt; omega⟩

/-! ### The windows' block indices over the grid

The three row-blocked operands sit at row tile `t / 4`; the three operands blocked along their columns and the two
blocked along their rows sit at hidden block `t % 4`; the other coordinate of every block index is `0`. -/

theorem idx0 : ∀ t : Fin cfg0.N, win0_0.index t 0 = t.val / 4 ∧ win0_0.index t 1 = 0 :=
  (by decide +kernel : ∀ t : Fin grid0.N, _)
theorem idx1 : ∀ t : Fin cfg0.N, win0_1.index t 0 = t.val / 4 ∧ win0_1.index t 1 = 0 :=
  (by decide +kernel : ∀ t : Fin grid0.N, _)
theorem idx2 : ∀ t : Fin cfg0.N, win0_2.index t 0 = t.val / 4 ∧ win0_2.index t 1 = 0 :=
  (by decide +kernel : ∀ t : Fin grid0.N, _)
theorem idx3 : ∀ t : Fin cfg0.N, win0_3.index t 0 = 0 ∧ win0_3.index t 1 = t.val % 4 :=
  (by decide +kernel : ∀ t : Fin grid0.N, _)
theorem idx4 : ∀ t : Fin cfg0.N, win0_4.index t 0 = 0 ∧ win0_4.index t 1 = t.val % 4 :=
  (by decide +kernel : ∀ t : Fin grid0.N, _)
theorem idx5 : ∀ t : Fin cfg0.N, win0_5.index t 0 = 0 ∧ win0_5.index t 1 = t.val % 4 :=
  (by decide +kernel : ∀ t : Fin grid0.N, _)
theorem idx6 : ∀ t : Fin cfg0.N, win0_6.index t 0 = t.val % 4 ∧ win0_6.index t 1 = 0 :=
  (by decide +kernel : ∀ t : Fin grid0.N, _)
theorem idx7 : ∀ t : Fin cfg0.N, win0_7.index t 0 = t.val % 4 ∧ win0_7.index t 1 = 0 :=
  (by decide +kernel : ∀ t : Fin grid0.N, _)

theorem blk0_apply (c : Dev nD) (t : Fin cfg0.N) (a : Fin 256) (k : Fin 512) :
    blk0 m c t (ix2 a k) = arrXr m c (ix2 (rowOf t a) k) := by
  have hi := idx0 t
  show iblk m c 0 t (ix2 a k) = _
  unfold iblk
  rw [View.read_apply]
  show V m c main_v0 (((cfg0.win 0).blk t).view.emb (ix2 a k)) = V m c main_v0 _
  refine congrArg (V m c main_v0) (funext fun ax => Fin.ext ?_)
  match ax with
  | ⟨0, _⟩ =>
    show win0_0.index t 0 * 256 + 1 * a.val = 256 * (t.val / 4) + a.val
    rw [hi.1]; omega
  | ⟨1, _⟩ =>
    show win0_0.index t 1 * 512 + 1 * k.val = k.val
    rw [hi.2]; omega
theorem blk1_apply (c : Dev nD) (t : Fin cfg0.N) (a : Fin 256) (p : Fin 64) :
    blk1 m c t (ix2 a p) = arrXi m c (ix2 (rowOf t a) p) := by
  have hi := idx1 t
  show iblk m c 1 t (ix2 a p) = _
  unfold iblk
  rw [View.read_apply]
  show V m c main_v1 (((cfg0.win 1).blk t).view.emb (ix2 a p)) = V m c main_v1 _
  refine congrArg (V m c main_v1) (funext fun ax => Fin.ext ?_)
  match ax with
  | ⟨0, _⟩ =>
    show win0_1.index t 0 * 256 + 1 * a.val = 256 * (t.val / 4) + a.val
    rw [hi.1]; omega
  | ⟨1, _⟩ =>
    show win0_1.index t 1 * 64 + 1 * p.val = p.val
    rw [hi.2]; omega
theorem blk2_apply (c : Dev nD) (t : Fin cfg0.N) (a : Fin 256) (p : Fin 64) :
    blk2 m c t (ix2 a p) = arrT m c (ix2 (rowOf t a) p) := by
  have hi := idx2 t
  show iblk m c 2 t (ix2 a p) = _
  unfold iblk
  rw [View.read_apply]
  show V m c main_v5 (((cfg0.win 2).blk t).view.emb (ix2 a p)) = V m c main_v5 _
  refine congrArg (V m c main_v5) (funext fun ax => Fin.ext ?_)
  match ax with
  | ⟨0, _⟩ =>
    show win0_2.index t 0 * 256 + 1 * a.val = 256 * (t.val / 4) + a.val
    rw [hi.1]; omega
  | ⟨1, _⟩ =>
    show win0_2.index t 1 * 64 + 1 * p.val = p.val
    rw [hi.2]; omega
theorem blk3_apply (c : Dev nD) (t : Fin cfg0.N) (p : Fin 64) (b : Fin 512) :
    blk3 m c t (ix2 p b) = arrW m c (ix2 p (colOf t b)) := by
  have hi := idx3 t
  show iblk m c 3 t (ix2 p b) = _
  unfold iblk
  rw [View.read_apply]
  show V m c main_arg4 (((cfg0.win 3).blk t).view.emb (ix2 p b)) = V m c main_arg4 _
  refine congrArg (V m c main_arg4) (funext fun ax => Fin.ext ?_)
  match ax with
  | ⟨0, _⟩ =>
    show win0_3.index t 0 * 64 + 1 * p.val = p.val
    rw [hi.1]; omega
  | ⟨1, _⟩ =>
    show win0_3.index t 1 * 512 + 1 * b.val = 512 * (t.val % 4) + b.val
    rw [hi.2]; omega
theorem blk4_apply (c : Dev nD) (t : Fin cfg0.N) (p : Fin 64) (b : Fin 512) :
    blk4 m c t (ix2 p b) = arrB m c (ix2 p (colOf t b)) := by
  have hi := idx4 t
  show iblk m c 4 t (ix2 p b) = _
  unfold iblk
  rw [View.read_apply]
  show V m c main_arg5 (((cfg0.win 4).blk t).view.emb (ix2 p b)) = V m c main_arg5 _
  refine congrArg (V m c main_arg5) (funext fun ax => Fin.ext ?_)
  match ax with
  | ⟨0, _⟩ =>
    show win0_4.index t 0 * 64 + 1 * p.val = p.val
    rw [hi.1]; omega
  | ⟨1, _⟩ =>
    show win0_4.index t 1 * 512 + 1 * b.val = 512 * (t.val % 4) + b.val
    rw [hi.2]; omega
theorem blk5_apply (c : Dev nD) (t : Fin cfg0.N) (k : Fin 512) (b : Fin 512) :
    blk5 m c t (ix2 k b) = arrWu m c (ix2 k (colOf t b)) := by
  have hi := idx5 t
  show iblk m c 5 t (ix2 k b) = _
  unfold iblk
  rw [View.read_apply]
  show V m c main_arg3 (((cfg0.win 5).blk t).view.emb (ix2 k b)) = V m c main_arg3 _
  refine congrArg (V m c main_arg3) (funext fun ax => Fin.ext ?_)
  match ax with
  | ⟨0, _⟩ =>
    show win0_5.index t 0 * 512 + 1 * k.val = k.val
    rw [hi.1]; omega
  | ⟨1, _⟩ =>
    show win0_5.index t 1 * 512 + 1 * b.val = 512 * (t.val % 4) + b.val
    rw [hi.2]; omega
theorem blk6_apply (c : Dev nD) (t : Fin cfg0.N) (b : Fin 512) (d : Fin 512) :
    blk6 m c t (ix2 b d) = arrWr m c (ix2 (colOf t b) d) := by
  have hi := idx6 t
  show iblk m c 6 t (ix2 b d) = _
  unfold iblk
  rw [View.read_apply]
  show V m c main_arg6 (((cfg0.win 6).blk t).view.emb (ix2 b d)) = V m c main_arg6 _
  refine congrArg (V m c main_arg6) (funext fun ax => Fin.ext ?_)
  match ax with
  | ⟨0, _⟩ =>
    show win0_6.index t 0 * 512 + 1 * b.val = 512 * (t.val % 4) + b.val
    rw [hi.1]; omega
  | ⟨1, _⟩ =>
    show win0_6.index t 1 * 512 + 1 * d.val = d.val
    rw [hi.2]; omega
theorem blk7_apply (c : Dev nD) (t : Fin cfg0.N) (b : Fin 512) (p : Fin 64) :
    blk7 m c t (ix2 b p) = arrWi m c (ix2 (colOf t b) p) := by
  have hi := idx7 t
  show iblk m c 7 t (ix2 b p) = _
  unfold iblk
  rw [View.read_apply]
  show V m c main_arg7 (((cfg0.win 7).blk t).view.emb (ix2 b p)) = V m c main_arg7 _
  refine congrArg (V m c main_arg7) (funext fun ax => Fin.ext ?_)
  match ax with
  | ⟨0, _⟩ =>
    show win0_7.index t 0 * 512 + 1 * b.val = 512 * (t.val % 4) + b.val
    rw [hi.1]; omega
  | ⟨1, _⟩ =>
    show win0_7.index t 1 * 64 + 1 * p.val = p.val
    rw [hi.2]; omega

/-- Batch index and position of a flattened row. -/
abbrev rowB (r : Fin 1024) : Fin 2 := ⟨r.val / 512, by have := r.isLt; omega⟩
abbrev rowL (r : Fin 1024) : Fin 512 := ⟨r.val % 512, Nat.mod_lt _ (by decide)⟩

/-! ### The arrays the host writes before the region

The two flattened operands are reshapes of the arguments; the phases are the reshape of the product of the imaginary
part with the position frequencies broadcast along the batch axis. -/

theorem arrXr_eq (c : Dev nD) : (V m c main_v0 : S1024x512.Idx → Elt F .f32)
    = shapeCast S1024x512 (m ((c : Thread nD τ).loc main_arg0)) shapeCasts_S2x512x512_S1024x512 := by
  show StableHlo.after hostOps0 (fun b => m (c, b)) (Proc.devRef .tc main_v0) = _
  after_results
  rfl

theorem arrXi_eq (c : Dev nD) : (V m c main_v1 : S1024x64.Idx → Elt F .f32)
    = shapeCast S1024x64 (m ((c : Thread nD τ).loc main_arg1)) shapeCasts_S2x512x64_S1024x64 := by
  show StableHlo.after hostOps0 (fun b => m (c, b)) (Proc.devRef .tc main_v1) = _
  after_results
  rfl

theorem arrT_eq (c : Dev nD) : (V m c main_v5 : S1024x64.Idx → Elt F .f32)
    = shapeCast S1024x64
        (mulf (m ((c : Thread nD τ).loc main_arg1))
          (broadcastInDim S2x512x64 ![0, 1, 2] bcast_S1x512x64_S2x512x64_0_1_2
            (broadcastInDim S1x512x64 ![1, 2] bcast_S512x64_S1x512x64_1_2 (m ((c : Thread nD τ).loc main_arg2)))))
        shapeCasts_S2x512x64_S1024x64 := by
  show StableHlo.after hostOps0 (fun b => m (c, b)) (Proc.devRef .tc main_v5) = _
  after_results
  rfl

/-- Row `r` of a flattened `[2, 512, n]` array is position `(r / 512, r % 512)`: the two row-major positions agree. -/
theorem flat_pos (n : Nat) (r : Fin 1024) (q : Fin n) :
    ((r.val / 512) * 512 + r.val % 512) * n + q.val = r.val * n + q.val := by
  have h : (r.val / 512) * 512 + r.val % 512 = r.val := by omega
  rw [h]

theorem arrXr_apply (c : Dev nD) (r : Fin 1024) (k : Fin 512) :
    arrXr m c (ix2 r k) = argXr m c (ix3 (rowB r) (rowL r) k) := by
  show (V m c main_v0 : S1024x512.Idx → Elt F .f32) (ix2 r k) = _
  rw [arrXr_eq]
  refine shapeCast_apply _ _ (ix2 r k) (ix3 (rowB r) (rowL r) k) ?_
  rw [Shape.rowMajor_val_three, Shape.rowMajor_val_two]
  exact flat_pos 512 r k
theorem arrXi_apply (c : Dev nD) (r : Fin 1024) (p : Fin 64) :
    arrXi m c (ix2 r p) = argXi m c (ix3 (rowB r) (rowL r) p) := by
  show (V m c main_v1 : S1024x64.Idx → Elt F .f32) (ix2 r p) = _
  rw [arrXi_eq]
  refine shapeCast_apply _ _ (ix2 r p) (ix3 (rowB r) (rowL r) p) ?_
  rw [Shape.rowMajor_val_three, Shape.rowMajor_val_two]
  exact flat_pos 64 r p
theorem arrT_apply (c : Dev nD) (r : Fin 1024) (p : Fin 64) :
    arrT m c (ix2 r p) = FloatOps.mulf (argXi m c (ix3 (rowB r) (rowL r) p)) (argPf m c (ix2 (rowL r) p)) := by
  show (V m c main_v5 : S1024x64.Idx → Elt F .f32) (ix2 r p) = _
  rw [arrT_eq]
  refine (shapeCast_apply _ _ (ix2 r p) (ix3 (rowB r) (rowL r) p) ?_).trans ?_
  · rw [Shape.rowMajor_val_three, Shape.rowMajor_val_two]
    exact flat_pos 64 r p
  · show FloatOps.mulf _ _ = FloatOps.mulf _ _
    refine congrArg _ ?_
    refine (broadcastInDim_apply _ _ _ (ix3 (rowB r) (rowL r) p) (ix3 (0 : Fin 1) (rowL r) p) ?_).trans ?_
    · intro ax
      match ax with
      | ⟨0, _⟩ => rfl
      | ⟨1, _⟩ => rfl
      | ⟨2, _⟩ => rfl
    · refine broadcastInDim_apply _ _ _ (ix3 (0 : Fin 1) (rowL r) p) (ix2 (rowL r) p) ?_
      intro ax
      match ax with
      | ⟨0, _⟩ => rfl
      | ⟨1, _⟩ => rfl
theorem arrW_eq (c : Dev nD) : arrW m c = argW m c := V_main_arg4 m c
theorem arrB_eq (c : Dev nD) : arrB m c = argB m c := V_main_arg5 m c
theorem arrWu_eq (c : Dev nD) : arrWu m c = argWu m c := V_main_arg3 m c
theorem arrWr_eq (c : Dev nD) : arrWr m c = argWr m c := V_main_arg6 m c
theorem arrWi_eq (c : Dev nD) : arrWi m c = argWi m c := V_main_arg7 m c

end Cert.KernelIdeal.Blocks

end
-- ==== Proof.KAccum.lean ====
/-
  The accumulators point by point (for any float instance).

  Whatever the control case, after grid point `n` each accumulator holds the point's step applied to what the point
  found: the cleared tile when `n` opens a row tile (`n % 4 = 0`), else what point `n - 1` left.  At the last hidden
  block of a row tile (`n % 4 = 3`) the result tiles hold the residual tile plus the accumulator just completed.
-/
import proofs.«112866_j16827681866028_1_alg».proof.Proof.Gen.KernelIdeal.Frame
import proofs.«112866_j16827681866028_1_alg».proof.Proof.KPieces
import proofs.«112866_j16827681866028_1_alg».proof.Proof.KBlocks
import Idealize.ShloMosaic.Lib.Pipeline.Value

set_option maxRecDepth 16384

noncomputable section

open Idealize.ShloMosaic Idealize.ShloMosaic.TcCoe Idealize.SL.Sem

namespace Cert.KernelIdeal.Accum

open Cert.KernelIdeal Cert.KernelIdeal.Gen Cert.KernelIdeal.Body Cert.KernelIdeal.Pieces Cert.KernelIdeal.Blocks

variable {F : FTy → Type} [FloatOps F]
variable (m : (ℓ : Loc nD τ sig) → Buf (Elt F) ℓ)

/-- The real accumulator after point `n`. -/
abbrev accReal (c : Dev nD) (n : ℕ) (h : n < cfg0.N) : Vec F S256x512 .f32 := (outsAt0 m c n h).2.2.1
/-- The imaginary accumulator after point `n`. -/
abbrev accImag (c : Dev nD) (n : ℕ) (h : n < cfg0.N) : Vec F S256x64 .f32 := (outsAt0 m c n h).2.2.2

theorem pred_lt {n : ℕ} (h : n < cfg0.N) : n - 1 < cfg0.N := lt_of_le_of_lt (Nat.sub_le _ _) h

/-- One point's step of the real accumulator. -/
theorem real_step (c : Dev nD) (n : ℕ) (h : n < cfg0.N) :
    accReal m c n h = stepReal (blk2 m c ⟨n, h⟩) (blk3 m c ⟨n, h⟩) (blk4 m c ⟨n, h⟩) (blk0 m c ⟨n, h⟩) (blk5 m c ⟨n, h⟩) (blk6 m c ⟨n, h⟩)
      (if n % 4 = 0 then zeroReal else accReal m c (n - 1) (pred_lt h)) := by
  by_cases h0 : n % 4 = 0
  · have h1 : ¬n % 4 = 3 := by omega
    rw [if_pos h0]
    show (outsAt0 m c n h).2.2.1 = _
    rw [outsAt0_A m c ⟨n, h⟩ h0 h1]
    dsimp only
    exact real_A ..
  · rw [if_neg h0]
    by_cases h1 : n % 4 = 3
    · show (outsAt0 m c n h).2.2.1 = _
      rw [outsAt0_C m c ⟨n, h⟩ h0 h1]
      dsimp only
      exact real_C ..
    · show (outsAt0 m c n h).2.2.1 = _
      rw [outsAt0_B m c ⟨n, h⟩ h0 h1]
      dsimp only
      exact real_B ..

/-- One point's step of the imaginary accumulator. -/
theorem imag_step (c : Dev nD) (n : ℕ) (h : n < cfg0.N) :
    accImag m c n h = stepImag (blk2 m c ⟨n, h⟩) (blk3 m c ⟨n, h⟩) (blk4 m c ⟨n, h⟩) (blk7 m c ⟨n, h⟩)
      (if n % 4 = 0 then zeroImag else accImag m c (n - 1) (pred_lt h)) := by
  by_cases h0 : n % 4 = 0
  · have h1 : ¬n % 4 = 3 := by omega
    rw [if_pos h0]
    show (outsAt0 m c n h).2.2.2 = _
    rw [outsAt0_A m c ⟨n, h⟩ h0 h1]
    dsimp only
    exact imag_A ..
  · rw [if_neg h0]
    by_cases h1 : n % 4 = 3
    · show (outsAt0 m c n h).2.2.2 = _
      rw [outsAt0_C m c ⟨n, h⟩ h0 h1]
      dsimp only
      exact imag_C ..
    · show (outsAt0 m c n h).2.2.2 = _
      rw [outsAt0_B m c ⟨n, h⟩ h0 h1]
      dsimp only
      exact imag_B ..

/-- The real result tile at the last hidden block of a row tile. -/
theorem real_last (c : Dev nD) (t : Fin cfg0.N) (h3 : t.val % 4 = 3) :
    (outsAt0 m c t.val t.isLt).1 = k0_pay1 (blk0 m c t) (accReal m c t.val t.isLt) := by
  have h0 : ¬t.val % 4 = 0 := by omega
  have e : accReal m c t.val t.isLt = stepReal (blk2 m c t) (blk3 m c t) (blk4 m c t) (blk0 m c t) (blk5 m c t) (blk6 m c t)
      (accReal m c (t.val - 1) (pred_lt t.isLt)) := by
    rw [real_step m c t.val t.isLt, if_neg h0]
  rw [e, outsAt0_C m c t h0 h3]
  dsimp only
  exact outReal_C ..

/-- The imaginary result tile at the last hidden block of a row tile. -/
theorem imag_last (c : Dev nD) (t : Fin cfg0.N) (h3 : t.val % 4 = 3) :
    (outsAt0 m c t.val t.isLt).2.1 = k0_pay2 (blk1 m c t) (accImag m c t.val t.isLt) := by
  have h0 : ¬t.val % 4 = 0 := by omega
  have e : accImag m c t.val t.isLt = stepImag (blk2 m c t) (blk3 m c t) (blk4 m c t) (blk7 m c t)
      (accImag m c (t.val - 1) (pred_lt t.isLt)) := by
    rw [imag_step m c t.val t.isLt, if_neg h0]
  rw [e, outsAt0_C m c t h0 h3]
  dsimp only
  exact outImag_C ..

end Cert.KernelIdeal.Accum

end
-- ==== Proof.Spec.lean ====
/-
  The mathematics of the resonant feed-forward block, on the extended reals, one row of the
  flattened batch at a time.

  For a row with real part `x : Fin 512 → EReal` and phase row `t : Fin 64 → EReal` (the imaginary
  part times the position frequencies), the hidden column `h` carries
    gate h  = (∑ p, cos (t p · w p h + b p h)) · c          (c the scale 1/8, kept as its word)
    value h = ∑ k, x k · Wu k h
  and the two results are
    real d  = x d  + ∑ h, (value h · gate h) · Wr h d
    imag p  = xi p + ∑ h, gate h · Wi h p .
  The kernel walks the 2048 hidden columns in four blocks of 512 and adds the blocks' partial sums in
  order, starting from zero; `sum_hidden_blocks` says that this ordered sum is the sum over all the
  columns (addition of extended reals is commutative and associative; no finiteness is used).
-/
import Idealize.ShloMosaic.PureOps.Ideal
import Idealize.ShloMosaic.Lib.ValueIdx

noncomputable section

open scoped BigOperators

namespace Cert.Resonant

open Idealize.ShloMosaic Idealize.ShloMosaic.ValueIdx

/-- The scale `1/√64`, as the word both programs carry. -/
abbrev scale : EReal := Ideal.ofBits .f32 0x3E000000#32

/-- The gate of one row at one hidden column: the 64 cosines summed, then scaled. -/
def gate (t w b : Fin 64 → EReal) : EReal := (∑ p : Fin 64, Ideal.cos (t p * w p + b p)) * scale

/-- The up-projection of one row at one hidden column. -/
def value (x wu : Fin 512 → EReal) : EReal := ∑ k : Fin 512, x k * wu k

/-- Hidden column `512 j + h` of block `j`. -/
abbrev hcol (j : Fin 4) (h : Fin 512) : Fin 2048 := ⟨j.val * 512 + h.val, by have := j.isLt; have := h.isLt; omega⟩

/-- The real result of one row at column `d`. -/
def outReal (x : Fin 512 → EReal) (t : Fin 64 → EReal) (Wu : Fin 512 → Fin 2048 → EReal)
    (w b : Fin 64 → Fin 2048 → EReal) (Wr : Fin 2048 → Fin 512 → EReal) (d : Fin 512) : EReal :=
  x d + ∑ h : Fin 2048, (value x (fun k => Wu k h) * gate t (fun p => w p h) (fun p => b p h)) * Wr h d

/-- The imaginary result of one row at column `p`. -/
def outImag (xi : Fin 64 → EReal) (t : Fin 64 → EReal)
    (w b : Fin 64 → Fin 2048 → EReal) (Wi : Fin 2048 → Fin 64 → EReal) (p : Fin 64) : EReal :=
  xi p + ∑ h : Fin 2048, gate t (fun q => w q h) (fun q => b q h) * Wi h p

end Cert.Resonant

end
-- ==== Proof.KGate.lean ====
/-
  The gate tile of one grid point, read at an entry, on the extended reals.

  The body slices column `p` of the phase tile `t` ([256, 64]) and row `p` of the two weight tiles `w`, `b`
  ([64, 512]), broadcasts them to [256, 512] and adds `cos (t_p · w_p + b_p)` to a running sum that starts
  at zero: at row `r`, column `j` that term is `cos (t r p · w p j + b p j)` (`cosTerm_apply`), so the running sum is
  the left-nested sum of the 64 terms and the gate is that sum times the scale (`gateBlk_apply`).
-/
import proofs.«112866_j16827681866028_1_alg».proof.Proof.KChain
import proofs.«112866_j16827681866028_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.GateValue

open Cert.KernelIdeal Cert.KernelIdeal.Gen Cert.KernelIdeal.Body Idealize.ShloMosaic Idealize.ShloMosaic.ValueIdx

variable (v10 : FVec Ideal S256x64 .f32) (x3 x4 : FVec Ideal S64x512 .f32)

/-- Phase `p`'s term at row `r`, column `j` of the tile (`p` a natural below 64, reduced so that no bound is carried). -/
def phase (r : Fin 256) (j : Fin 512) (p : ℕ) : EReal :=
  Ideal.cos (v10 (ix2 r ⟨p % 64, Nat.mod_lt _ (by decide)⟩) * x3 (ix2 ⟨p % 64, Nat.mod_lt _ (by decide)⟩ j)
    + x4 (ix2 ⟨p % 64, Nat.mod_lt _ (by decide)⟩ j))

/-- One phase as the body computes it — the column slice and the two row slices broadcast, multiplied, added,
    the cosine taken — read at `(r, j)`. -/
theorem cosTerm_apply (p : ℕ) (h1 : S256x64.Slices ![0, p] S256x1) (h2 h3 : S64x512.Slices ![p, 0] S1x512)
    (r : Fin 256) (j : Fin 512) :
    cos (addf (mulf (broadcastTo S256x512 (extractStridedSlice S256x1 ![0, p] v10 h1) broadcasts_S256x1_S256x512)
        (broadcastTo S256x512 (extractStridedSlice S1x512 ![p, 0] x3 h2) broadcasts_S1x512_S256x512))
      (broadcastTo S256x512 (extractStridedSlice S1x512 ![p, 0] x4 h3) broadcasts_S1x512_S256x512)) (ix2 r j)
      = phase v10 x3 x4 r j p := by
  have hp : p % 64 = p := by
    obtain ⟨_, hb⟩ := h1
    have := hb ⟨1, by decide⟩
    have e : (![0, p] : Fin S256x64.rank → Nat) ⟨1, by decide⟩ + S256x1.size ⟨1, by decide⟩ ≤ S256x64.size ⟨1, by decide⟩ := this
    have e' : p + 1 ≤ 64 := e
    exact Nat.mod_eq_of_lt (by omega)
  have ecol : broadcastTo S256x512 (extractStridedSlice S256x1 ![0, p] v10 h1) broadcasts_S256x1_S256x512 (ix2 r j)
      = v10 (ix2 r ⟨p % 64, Nat.mod_lt _ (by decide)⟩) :=
    (broadcastTo_apply _ _ (ix2 r j) (ix2 r ⟨0, by decide⟩) (fun a => by
      match a with
      | ⟨0, _⟩ => show r.val = if (256 : Nat) = 1 then 0 else r.val; rw [if_neg (by decide)]
      | ⟨1, _⟩ => show 0 = if (1 : Nat) = 1 then 0 else j.val; rw [if_pos rfl])).trans
    (extractStridedSlice_apply _ _ _ _ (ix2 r ⟨p % 64, Nat.mod_lt _ (by decide)⟩) (fun a => by
      match a with
      | ⟨0, _⟩ => show r.val = 0 + r.val; omega
      | ⟨1, _⟩ => show p % 64 = p + 0; omega))
  have erow : ∀ (x : FVec Ideal S64x512 .f32) (h : S64x512.Slices ![p, 0] S1x512),
      broadcastTo S256x512 (extractStridedSlice S1x512 ![p, 0] x h) broadcasts_S1x512_S256x512 (ix2 r j)
        = x (ix2 ⟨p % 64, Nat.mod_lt _ (by decide)⟩ j) := fun x h =>
    (broadcastTo_apply _ _ (ix2 r j) (ix2 ⟨0, by decide⟩ j) (fun a => by
      match a with
      | ⟨0, _⟩ => show 0 = if (1 : Nat) = 1 then 0 else r.val; rw [if_pos rfl]
      | ⟨1, _⟩ => show j.val = if (512 : Nat) = 1 then 0 else j.val; rw [if_neg (by decide)])).trans
    (extractStridedSlice_apply _ _ _ _ (ix2 ⟨p % 64, Nat.mod_lt _ (by decide)⟩ j) (fun a => by
      match a with
      | ⟨0, _⟩ => show p % 64 = p + 0; omega
      | ⟨1, _⟩ => show j.val = 0 + j.val; omega))
  show Ideal.cos (_ * _ + _) = _
  rw [ecol, erow x3 h2, erow x4 h3]
  rfl

/-! ## The running sum, stretch by stretch

Each store-free stretch of the body adds its phases, in order, to what the stretches before it summed. -/

variable (a b : FVec Ideal S256x512 .f32) (r : Fin 256) (j : Fin 512)

local notation "ph" => phase v10 x3 x4 r j

theorem pay8_apply : k0_pay8 (F := Ideal) v10 x3 x4 (ix2 r j) = phase (k0_pay6 (F := Ideal) v10) x3 x4 r j 2 := by
  unfold k0_pay8; simp only [cosTerm_apply]
theorem pay7_apply : k0_pay7 (F := Ideal) v10 x3 x4 (ix2 r j)
    = Ideal.ofBits .f32 0x00000000#32 + phase (k0_pay6 (F := Ideal) v10) x3 x4 r j 0 + phase (k0_pay6 (F := Ideal) v10) x3 x4 r j 1 := by
  unfold k0_pay7; simp only [addf_apply, cosTerm_apply]; rfl
theorem pay9_apply : k0_pay9 (F := Ideal) v10 x3 x4 a b (ix2 r j) = a (ix2 r j) + b (ix2 r j) + ph 3 + ph 4 + ph 5 + ph 6 + ph 7 := by
  unfold k0_pay9; simp only [addf_apply, cosTerm_apply]
theorem pay10_apply : k0_pay10 (F := Ideal) v10 x3 x4 (ix2 r j) = ph 8 := by
  unfold k0_pay10; simp only [cosTerm_apply]
theorem pay11_apply : k0_pay11 (F := Ideal) v10 x3 x4 a b (ix2 r j) = a (ix2 r j) + b (ix2 r j) + ph 9 + ph 10 + ph 11 + ph 12 + ph 13 := by
  unfold k0_pay11; simp only [addf_apply, cosTerm_apply]
theorem pay12_apply : k0_pay12 (F := Ideal) v10 x3 x4 (ix2 r j) = ph 14 := by
  unfold k0_pay12; simp only [cosTerm_apply]
theorem pay13_apply : k0_pay13 (F := Ideal) v10 x3 x4 a b (ix2 r j) = a (ix2 r j) + b (ix2 r j) + ph 15 + ph 16 + ph 17 + ph 18 + ph 19 := by
  unfold k0_pay13; simp only [addf_apply, cosTerm_apply]
theorem pay14_apply : k0_pay14 (F := Ideal) v10 x3 x4 (ix2 r j) = ph 20 := by
  unfold k0_pay14; simp only [cosTerm_apply]
theorem pay15_apply : k0_pay15 (F := Ideal) v10 x3 x4 a b (ix2 r j) = a (ix2 r j) + b (ix2 r j) + ph 21 + ph 22 + ph 23 + ph 24 + ph 25 := by
  unfold k0_pay15; simp only [addf_apply, cosTerm_apply]
theorem pay16_apply : k0_pay16 (F := Ideal) v10 x3 x4 (ix2 r j) = ph 26 := by
  unfold k0_pay16; simp only [cosTerm_apply]
theorem pay17_apply : k0_pay17 (F := Ideal) v10 x3 x4 a b (ix2 r j) = a (ix2 r j) + b (ix2 r j) + ph 27 + ph 28 + ph 29 + ph 30 + ph 31 := by
  unfold k0_pay17; simp only [addf_apply, cosTerm_apply]
theorem pay18_apply : k0_pay18 (F := Ideal) v10 x3 x4 (ix2 r j) = ph 32 := by
  unfold k0_pay18; simp only [cosTerm_apply]
theorem pay19_apply : k0_pay19 (F := Ideal) v10 x3 x4 a b (ix2 r j) = a (ix2 r j) + b (ix2 r j) + ph 33 + ph 34 + ph 35 + ph 36 + ph 37 := by
  unfold k0_pay19; simp only [addf_apply, cosTerm_apply]
theorem pay20_apply : k0_pay20 (F := Ideal) v10 x3 x4 (ix2 r j) = ph 38 := by
  unfold k0_pay20; simp only [cosTerm_apply]
theorem pay21_apply : k0_pay21 (F := Ideal) v10 x3 x4 a b (ix2 r j) = a (ix2 r j) + b (ix2 r j) + ph 39 + ph 40 + ph 41 + ph 42 + ph 43 := by
  unfold k0_pay21; simp only [addf_apply, cosTerm_apply]
theorem pay22_apply : k0_pay22 (F := Ideal) v10 x3 x4 (ix2 r j) = ph 44 := by
  unfold k0_pay22; simp only [cosTerm_apply]
theorem pay23_apply : k0_pay23 (F := Ideal) v10 x3 x4 a b (ix2 r j) = a (ix2 r j) + b (ix2 r j) + ph 45 + ph 46 + ph 47 + ph 48 + ph 49 := by
  unfold k0_pay23; simp only [addf_apply, cosTerm_apply]
theorem pay24_apply : k0_pay24 (F := Ideal) v10 x3 x4 (ix2 r j) = ph 50 := by
  unfold k0_pay24; simp only [cosTerm_apply]
theorem pay25_apply : k0_pay25 (F := Ideal) v10 x3 x4 a b (ix2 r j) = a (ix2 r j) + b (ix2 r j) + ph 51 + ph 52 + ph 53 + ph 54 + ph 55 := by
  unfold k0_pay25; simp only [addf_apply, cosTerm_apply]
theorem pay26_apply : k0_pay26 (F := Ideal) v10 x3 x4 (ix2 r j) = ph 56 := by
  unfold k0_pay26; simp only [cosTerm_apply]
theorem pay27_apply : k0_pay27 (F := Ideal) v10 x3 x4 a b (ix2 r j) = a (ix2 r j) + b (ix2 r j) + ph 57 + ph 58 + ph 59 + ph 60 + ph 61 := by
  unfold k0_pay27; simp only [addf_apply, cosTerm_apply]
theorem pay28_apply : k0_pay28 (F := Ideal) v10 x3 x4 (ix2 r j) = ph 62 := by
  unfold k0_pay28; simp only [cosTerm_apply]
theorem pay29_apply : k0_pay29 (F := Ideal) v10 x3 x4 a b (ix2 r j) = (a (ix2 r j) + b (ix2 r j) + ph 63) * Cert.Resonant.scale := by
  unfold k0_pay29; simp only [addf_apply, mulf_apply, cosTerm_apply]; rfl

/-! ## The gate tile at an entry -/

/-- The gate tile of a point at row `r`, column `j`: Spec.lean's gate of row `r` of the phase tile and column `j`
    of the two weight tiles.  The body's left-nested sum from zero is the sum over the 64 phases. -/
theorem gateBlk_apply (x2 : FVec Ideal S256x64 .f32) (x3 x4 : FVec Ideal S64x512 .f32) (r : Fin 256) (j : Fin 512) :
    gateBlk (F := Ideal) x2 x3 x4 (ix2 r j)
      = Cert.Resonant.gate (fun p => x2 (ix2 r p)) (fun p => x3 (ix2 p j)) (fun p => x4 (ix2 p j)) := by
  have e6 : k0_pay6 (F := Ideal) x2 = x2 := by unfold k0_pay6; exact shapeCast_self _ _
  have hsum : ∑ p : Fin 64, Ideal.cos (x2 (ix2 r p) * x3 (ix2 p j) + x4 (ix2 p j))
      = ∑ p ∈ Finset.range 64, phase x2 x3 x4 r j p := by
    rw [← Fin.sum_univ_eq_sum_range (fun p => phase x2 x3 x4 r j p) 64]
    refine Finset.sum_congr rfl fun p _ => ?_
    unfold phase
    have hp : (⟨p.val % 64, Nat.mod_lt _ (by decide)⟩ : Fin 64) = p := Fin.ext (Nat.mod_eq_of_lt p.isLt)
    rw [hp]
  unfold gateBlk phaseSum27 phaseSum25 phaseSum23 phaseSum21 phaseSum19 phaseSum17 phaseSum15 phaseSum13 phaseSum11 phaseSum9
  simp only [pay29_apply, pay28_apply, pay27_apply, pay26_apply, pay25_apply, pay24_apply, pay23_apply, pay22_apply,
    pay21_apply, pay20_apply, pay19_apply, pay18_apply, pay17_apply, pay16_apply, pay15_apply, pay14_apply, pay13_apply,
    pay12_apply, pay11_apply, pay10_apply, pay9_apply, pay8_apply, pay7_apply, e6]
  unfold Cert.Resonant.gate
  rw [hsum, Ideal.ofBits_zero_f32]
  simp only [Finset.sum_range_succ, Finset.sum_range_zero]

end Cert.KernelIdeal.GateValue

end
-- ==== Proof.KStep.lean ====
/-
  One grid point's arithmetic read at an entry, on the extended reals.

  A `tpu.matmul` into the zero tile is the plain sum of products over the contracted axis (a change of float
  format is the identity here), so with the point's tiles `x` (rows of the real part), `t`, `w`, `b` (phases and
  gate weights), `Wu`, `Wr`, `Wi` (the three weight tiles) the point adds to the accumulators, at row `r`,
      real  d :  Σ_h (value r h · gate r h) · Wr h d        imag  p :  Σ_h gate r h · Wi h p
  over the 512 hidden columns `h` of its block, `value r h = Σ_k x r k · Wu k h`; a cleared accumulator reads zero, and
  the result tiles are the residual tile plus the accumulator.
-/
import proofs.«112866_j16827681866028_1_alg».proof.Proof.KGate
import Idealize.ShloMosaic.Lib.Pipeline.Value
import Idealize.ShloMosaic.Lib.ValueIdx
import Idealize.ShloMosaic.PureOps.Ideal.Laws

noncomputable section

open scoped BigOperators

namespace Cert.KernelIdeal.StepValue

open Cert.KernelIdeal Cert.KernelIdeal.Gen Cert.KernelIdeal.Body Cert.KernelIdeal.GateValue Idealize.ShloMosaic Idealize.ShloMosaic.ValueIdx

/-! ## The two matrix products at an entry -/

theorem lhsA_0 (i : S256x512.Idx) (q : dot_S256x512_S512x512_S256x512_1_0_0_1_n_n.contr.Idx) : (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide), dif_pos (show (0 : Fin S256x512.rank) ∈ dot_S256x512_S512x512_S256x512_1_0_0_1_n_n.lhsNonContracting by decide)]
  rfl
theorem lhsA_1 (i : S256x512.Idx) (q : dot_S256x512_S512x512_S256x512_1_0_0_1_n_n.contr.Idx) : (dot_S256x512_S512x512_S256x512_1_0_0_1_n_n.lhsIdx i q 1).val = (q ⟨0, by decide⟩).val :=
  dot_S256x512_S512x512_S256x512_1_0_0_1_n_n.lhsIdx_val_of_single rfl i q
theorem rhsA_0 (i : S256x512.Idx) (q : dot_S256x512_S512x512_S256x512_1_0_0_1_n_n.contr.Idx) : (dot_S256x512_S512x512_S256x512_1_0_0_1_n_n.rhsIdx i q 0).val = (q ⟨0, by decide⟩).val :=
  dot_S256x512_S512x512_S256x512_1_0_0_1_n_n.rhsIdx_val_of_single rfl i q
theorem rhsA_1 (i : S256x512.Idx) (q : dot_S256x512_S512x512_S256x512_1_0_0_1_n_n.contr.Idx) : (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide), dif_pos (show (1 : Fin S512x512.rank) ∈ dot_S256x512_S512x512_S256x512_1_0_0_1_n_n.rhsNonContracting by decide)]
  rfl

/-- A [256, 512] × [512, 512] product into the zero tile, at `(r, d)`. -/
theorem mmA_apply {φ₁ φ₂ : FTy} (l : FVec Ideal S256x512 φ₁) (rr : FVec Ideal S512x512 φ₂) (r : Fin 256) (d : Fin 512) :
    matmul dot_S256x512_S512x512_S256x512_1_0_0_1_n_n none l rr (constant S256x512 .f32 0x00000000#32) (ix2 r d) = ∑ k : Fin 512, l (ix2 r k) * rr (ix2 k d) := by
  show FloatOps.matmul dot_S256x512_S512x512_S256x512_1_0_0_1_n_n none l rr (constant S256x512 .f32 0x00000000#32) (ix2 r d) = _
  rw [Ideal.matmul_constant_zero_apply, ← Equiv.sum_comp (contrEquiv1 dot_S256x512_S512x512_S256x512_1_0_0_1_n_n 512 rfl rfl).symm]
  refine Finset.sum_congr rfl fun k _ => ?_
  have hk := contrEquiv1_symm_val dot_S256x512_S512x512_S256x512_1_0_0_1_n_n 512 rfl rfl k
  have el : dot_S256x512_S512x512_S256x512_1_0_0_1_n_n.lhsIdx (ix2 r d) ((contrEquiv1 dot_S256x512_S512x512_S256x512_1_0_0_1_n_n 512 rfl rfl).symm k) = ix2 r k := funext fun a => Fin.ext (by
    match a with
    | ⟨0, _⟩ => exact lhsA_0 _ _
    | ⟨1, _⟩ => exact (lhsA_1 _ _).trans hk)
  have er : dot_S256x512_S512x512_S256x512_1_0_0_1_n_n.rhsIdx (ix2 r d) ((contrEquiv1 dot_S256x512_S512x512_S256x512_1_0_0_1_n_n 512 rfl rfl).symm k) = ix2 k d := funext fun a => Fin.ext (by
    match a with
    | ⟨0, _⟩ => exact (rhsA_0 _ _).trans hk
    | ⟨1, _⟩ => exact rhsA_1 _ _)
  rw [el, er]

theorem lhsB_0 (i : S256x64.Idx) (q : dot_S256x512_S512x64_S256x64_1_0_0_1_n_n.contr.Idx) : (dot_S256x512_S512x64_S256x64_1_0_0_1_n_n.lhsIdx i q 0).val = (i 0).val := by
  unfold DotDims.lhsIdx
  rw [dif_neg (show ¬(0 : Fin S256x512.rank) ∈ dot_S256x512_S512x64_S256x64_1_0_0_1_n_n.lhsBatch by decide), dif_pos (show (0 : Fin S256x512.rank) ∈ dot_S256x512_S512x64_S256x64_1_0_0_1_n_n.lhsNonContracting by decide)]
  rfl
theorem lhsB_1 (i : S256x64.Idx) (q : dot_S256x512_S512x64_S256x64_1_0_0_1_n_n.contr.Idx) : (dot_S256x512_S512x64_S256x64_1_0_0_1_n_n.lhsIdx i q 1).val = (q ⟨0, by decide⟩).val :=
  dot_S256x512_S512x64_S256x64_1_0_0_1_n_n.lhsIdx_val_of_single rfl i q
theorem rhsB_0 (i : S256x64.Idx) (q : dot_S256x512_S512x64_S256x64_1_0_0_1_n_n.contr.Idx) : (dot_S256x512_S512x64_S256x64_1_0_0_1_n_n.rhsIdx i q 0).val = (q ⟨0, by decide⟩).val :=
  dot_S256x512_S512x64_S256x64_1_0_0_1_n_n.rhsIdx_val_of_single rfl i q
theorem rhsB_1 (i : S256x64.Idx) (q : dot_S256x512_S512x64_S256x64_1_0_0_1_n_n.contr.Idx) : (dot_S256x512_S512x64_S256x64_1_0_0_1_n_n.rhsIdx i q 1).val = (i 1).val := by
  unfold DotDims.rhsIdx
  rw [dif_neg (show ¬(1 : Fin S512x64.rank) ∈ dot_S256x512_S512x64_S256x64_1_0_0_1_n_n.rhsBatch by decide), dif_pos (show (1 : Fin S512x64.rank) ∈ dot_S256x512_S512x64_S256x64_1_0_0_1_n_n.rhsNonContracting by decide)]
  rfl

/-- A [256, 512] × [512, 64] product into the zero tile, at `(r, p)`. -/
theorem mmB_apply {φ₁ φ₂ : FTy} (l : FVec Ideal S256x512 φ₁) (rr : FVec Ideal S512x64 φ₂) (r : Fin 256) (p : Fin 64) :
    matmul dot_S256x512_S512x64_S256x64_1_0_0_1_n_n none l rr (constant S256x64 .f32 0x00000000#32) (ix2 r p) = ∑ k : Fin 512, l (ix2 r k) * rr (ix2 k p) := by
  show FloatOps.matmul dot_S256x512_S512x64_S256x64_1_0_0_1_n_n none l rr (constant S256x64 .f32 0x00000000#32) (ix2 r p) = _
  rw [Ideal.matmul_constant_zero_apply, ← Equiv.sum_comp (contrEquiv1 dot_S256x512_S512x64_S256x64_1_0_0_1_n_n 512 rfl rfl).symm]
  refine Finset.sum_congr rfl fun k _ => ?_
  have hk := contrEquiv1_symm_val dot_S256x512_S512x64_S256x64_1_0_0_1_n_n 512 rfl rfl k
  have el : dot_S256x512_S512x64_S256x64_1_0_0_1_n_n.lhsIdx (ix2 r p) ((contrEquiv1 dot_S256x512_S512x64_S256x64_1_0_0_1_n_n 512 rfl rfl).symm k) = ix2 r k := funext fun a => Fin.ext (by
    match a with
    | ⟨0, _⟩ => exact lhsB_0 _ _
    | ⟨1, _⟩ => exact (lhsB_1 _ _).trans hk)
  have er : dot_S256x512_S512x64_S256x64_1_0_0_1_n_n.rhsIdx (ix2 r p) ((contrEquiv1 dot_S256x512_S512x64_S256x64_1_0_0_1_n_n 512 rfl rfl).symm k) = ix2 k p := funext fun a => Fin.ext (by
    match a with
    | ⟨0, _⟩ => exact (rhsB_0 _ _).trans hk
    | ⟨1, _⟩ => exact rhsB_1 _ _)
  rw [el, er]

/-! ## The point's contributions -/

variable (x2 : FVec Ideal S256x64 .f32) (x3 x4 : FVec Ideal S64x512 .f32)

/-- The up-projection tile at `(r, h)`. -/
theorem value_apply (x0 : FVec Ideal S256x512 .f32) (x5 : FVec Ideal S512x512 .f32) (r : Fin 256) (h : Fin 512) :
    k0_pay5 (F := Ideal) x0 x5 (ix2 r h) = Cert.Resonant.value (fun k => x0 (ix2 r k)) (fun k => x5 (ix2 k h)) := by
  unfold k0_pay5
  rw [mmA_apply]
  unfold Cert.Resonant.value
  refine Finset.sum_congr rfl fun k _ => ?_
  rw [truncf_apply, truncf_apply, shapeCast_self]

/-- The real accumulator after the point, at `(r, d)`. -/
theorem stepReal_apply (x0 : FVec Ideal S256x512 .f32) (x5 x6 : FVec Ideal S512x512 .f32) (acc : FVec Ideal S256x512 .f32)
    (r : Fin 256) (d : Fin 512) :
    stepReal (F := Ideal) x2 x3 x4 x0 x5 x6 acc (ix2 r d)
      = acc (ix2 r d) + ∑ h : Fin 512, (Cert.Resonant.value (fun k => x0 (ix2 r k)) (fun k => x5 (ix2 k h))
          * Cert.Resonant.gate (fun p => x2 (ix2 r p)) (fun p => x3 (ix2 p h)) (fun p => x4 (ix2 p h))) * x6 (ix2 h d) := by
  rw [stepReal_eq, shapeCast_self, addf_apply, mmA_apply]
  refine congrArg (acc (ix2 r d) + ·) (Finset.sum_congr rfl fun h _ => ?_)
  rw [truncf_apply, truncf_apply, mulf_apply, value_apply, gateBlk_apply]

/-- The imaginary accumulator after the point, at `(r, p)`. -/
theorem stepImag_apply (x7 : FVec Ideal S512x64 .f32) (acc : FVec Ideal S256x64 .f32) (r : Fin 256) (p : Fin 64) :
    stepImag (F := Ideal) x2 x3 x4 x7 acc (ix2 r p)
      = acc (ix2 r p) + ∑ h : Fin 512, Cert.Resonant.gate (fun q => x2 (ix2 r q)) (fun q => x3 (ix2 q h)) (fun q => x4 (ix2 q h))
          * x7 (ix2 h p) := by
  rw [stepImag_eq, shapeCast_self, addf_apply, mmB_apply]
  refine congrArg (acc (ix2 r p) + ·) (Finset.sum_congr rfl fun h _ => ?_)
  rw [truncf_apply, truncf_apply, gateBlk_apply]

/-- A cleared real accumulator reads zero. -/
theorem zeroReal_apply (i : S256x512.Idx) : k0_pay3 (F := Ideal) i = 0 := by
  unfold k0_pay3
  rw [shapeCast_self]
  exact Ideal.ofBits_zero_f32

/-- A cleared imaginary accumulator reads zero. -/
theorem zeroImag_apply (i : S256x64.Idx) : k0_pay4 (F := Ideal) i = 0 := by
  unfold k0_pay4
  rw [shapeCast_self]
  exact Ideal.ofBits_zero_f32

/-- The real result tile: residual plus accumulator. -/
theorem resReal_apply (x0 acc : FVec Ideal S256x512 .f32) (i : S256x512.Idx) : k0_pay1 (F := Ideal) x0 acc i = x0 i + acc i := by
  unfold k0_pay1
  rw [addf_apply, shapeCast_self]

/-- The imaginary result tile: residual plus accumulator. -/
theorem resImag_apply (x1 acc : FVec Ideal S256x64 .f32) (i : S256x64.Idx) : k0_pay2 (F := Ideal) x1 acc i = x1 i + acc i := by
  unfold k0_pay2
  rw [addf_apply, shapeCast_self]

end Cert.KernelIdeal.StepValue

end
-- ==== Proof.LibScatterAddRows.lean ====
/-
  General lemmas on the host's accumulating scatter at the ideal instance, for index arrays of one index per update row
  (jax's `x.at[idx].add(u)` / `segment_sum`): the result at row `c` is the operand's entry plus the sum of the update rows
  whose index word, read as a signed integer, is `c`.  An index outside the operand lands nowhere, so it equals no `c`.
  Also: a sum over `Fin M` with `M = A·B` split row-major into a double sum.
-/
import Idealize.ShloMosaic.PureOps
import Idealize.ShloMosaic.PureOps.Ideal
import Idealize.ShloMosaic.Lib.ValueIdx

noncomputable section

namespace Cert.LibScatter

open Idealize.ShloMosaic Idealize.ShloMosaic.ValueIdx

/-- Equal axes give equal coordinates. -/
private theorem val_congr {s : Shape} (j : s.Idx) {a b : Fin s.rank} (h : a = b) : (j a).val = (j b).val := by
  subst h; rfl

/-- Rank 1: the window starts, on the operand's only axis, at the update row's index word read signed. -/
private theorem start1 {C M w : Nat} (d : ScatterDims ⟨1, ![C]⟩ ⟨2, ![M, 1]⟩ ⟨1, ![M]⟩)
    (huw : d.updateWindowDims = []) (hiw : d.insertedWindowDims = [0]) (hsd : d.scatterDimsToOperandDims = [0])
    (hiv : d.indexVectorDim = 1) (idx : IVec ⟨2, ![M, 1]⟩ w) (j : (⟨1, ![M]⟩ : Shape).Idx) :
    d.start j idx 0 = (idx (ix2 (j 0) 0)).toInt := by
  unfold ScatterDims.start
  rw [dif_pos (by rw [hsd]; simp)]
  congr 2
  funext b
  match b with
  | ⟨0, _⟩ =>
    unfold ScatterDims.siIdx
    rw [dif_neg (by simp [hiv])]
    unfold ScatterDims.siCoord
    apply Fin.ext
    simp only [Fin.coe_cast]
    exact val_congr j (Subsingleton.elim _ _)
  | ⟨1, _⟩ =>
    unfold ScatterDims.siIdx
    rw [dif_pos (by simp [hiv])]
    apply Fin.ext
    show List.idxOf 0 d.scatterDimsToOperandDims = 0
    rw [hsd]; rfl

/-- Rank 1: the operand's only axis is inserted, so the window coordinate on it is `0`. -/
private theorem window1 {C M : Nat} (d : ScatterDims ⟨1, ![C]⟩ ⟨2, ![M, 1]⟩ ⟨1, ![M]⟩)
    (hiw : d.insertedWindowDims = [0]) (j : (⟨1, ![M]⟩ : Shape).Idx) :
    d.window j 0 = 0 := by
  unfold ScatterDims.window
  rw [dif_neg]
  intro h
  have h2 := (List.mem_filter.1 h).2
  simp [hiw] at h2

/-- Rank 1: update row `j` lands at `c` exactly when its index word, read signed, is `c`. -/
private theorem resultIdx1 {C M w : Nat} (d : ScatterDims ⟨1, ![C]⟩ ⟨2, ![M, 1]⟩ ⟨1, ![M]⟩)
    (huw : d.updateWindowDims = []) (hiw : d.insertedWindowDims = [0]) (hsd : d.scatterDimsToOperandDims = [0])
    (hiv : d.indexVectorDim = 1) (idx : IVec ⟨2, ![M, 1]⟩ w) (j : (⟨1, ![M]⟩ : Shape).Idx) (c : Fin C) :
    d.resultIdx? j idx = some (ix1 c) ↔ (idx (ix2 (j 0) 0)).toInt = (c.val : Int) := by
  have hs := start1 d huw hiw hsd hiv idx j
  have hw := window1 d hiw j
  have hc := c.isLt
  unfold ScatterDims.resultIdx?
  constructor
  · intro h
    split at h
    · have h0 := congrArg Fin.val (congrFun (Option.some.inj h) 0)
      simp only [hs, hw] at h0
      rename_i hall
      have h1 := (hall 0).1
      rw [hs, hw] at h1
      change ((idx (ix2 (j 0) 0)).toInt + ((0 : Nat) : Int)).toNat = c.val at h0
      omega
    · cases h
  · intro h
    have hall : ∀ a, 0 ≤ d.start j idx a + d.window j a ∧ d.start j idx a + d.window j a < (⟨1, ![C]⟩ : Shape).size a := by
      intro a
      have ha : a = 0 := Subsingleton.elim _ _
      subst ha
      rw [hs, hw, h]
      change (0 : Int) ≤ (c.val : Int) + ((0 : Nat) : Int) ∧ (c.val : Int) + ((0 : Nat) : Int) < ((C : Nat) : Int)
      omega
    rw [dif_pos hall]
    congr 1
    funext a
    have ha : a = 0 := Subsingleton.elim _ _
    subst ha
    apply Fin.ext
    change (d.start j idx 0 + (d.window j 0 : Int)).toNat = c.val
    rw [hs, hw, h]
    omega

/-- Rank 2 with window axis `1`: the only update scatter axis is axis `0`. -/
private theorem mem_uScatter2 {C B M : Nat} (d : ScatterDims ⟨2, ![C, B]⟩ ⟨2, ![M, 1]⟩ ⟨2, ![M, B]⟩)
    (huw : d.updateWindowDims = [1]) (a : Fin 2) (ha : a ∈ d.uScatter) : a = 0 := by
  have h2 := (List.mem_filter.1 ha).2
  simp [huw] at h2
  omega

/-- Rank 2: on operand axis `0` the window starts at the update row's index word read signed. -/
private theorem start2_0 {C B M w : Nat} (d : ScatterDims ⟨2, ![C, B]⟩ ⟨2, ![M, 1]⟩ ⟨2, ![M, B]⟩)
    (huw : d.updateWindowDims = [1]) (hsd : d.scatterDimsToOperandDims = [0])
    (hiv : d.indexVectorDim = 1) (idx : IVec ⟨2, ![M, 1]⟩ w) (j : (⟨2, ![M, B]⟩ : Shape).Idx) :
    d.start j idx 0 = (idx (ix2 (j 0) 0)).toInt := by
  unfold ScatterDims.start
  rw [dif_pos (by rw [hsd]; simp)]
  congr 2
  funext b
  match b with
  | ⟨0, _⟩ =>
    unfold ScatterDims.siIdx
    rw [dif_neg (by simp [hiv])]
    unfold ScatterDims.siCoord
    apply Fin.ext
    simp only [Fin.coe_cast]
    exact val_congr j (mem_uScatter2 d huw _ (List.getElem_mem _))
  | ⟨1, _⟩ =>
    unfold ScatterDims.siIdx
    rw [dif_pos (by simp [hiv])]
    apply Fin.ext
    show List.idxOf 0 d.scatterDimsToOperandDims = 0
    rw [hsd]; rfl

/-- Rank 2: operand axis `1` is not named by the map, so the window starts at `0` on it. -/
private theorem start2_1 {C B M w : Nat} (d : ScatterDims ⟨2, ![C, B]⟩ ⟨2, ![M, 1]⟩ ⟨2, ![M, B]⟩)
    (hsd : d.scatterDimsToOperandDims = [0]) (idx : IVec ⟨2, ![M, 1]⟩ w) (j : (⟨2, ![M, B]⟩ : Shape).Idx) :
    d.start j idx 1 = 0 := by
  unfold ScatterDims.start
  rw [dif_neg (by rw [hsd]; simp)]

/-- Rank 2: operand axis `0` is inserted, so the window coordinate on it is `0`. -/
private theorem window2_0 {C B M : Nat} (d : ScatterDims ⟨2, ![C, B]⟩ ⟨2, ![M, 1]⟩ ⟨2, ![M, B]⟩)
    (hiw : d.insertedWindowDims = [0]) (j : (⟨2, ![M, B]⟩ : Shape).Idx) :
    d.window j 0 = 0 := by
  unfold ScatterDims.window
  rw [dif_neg]
  intro h
  have h2 := (List.mem_filter.1 h).2
  simp [hiw] at h2

/-- Rank 2: on operand axis `1` the window coordinate is the update's coordinate on axis `1`. -/
private theorem window2_1 {C B M : Nat} (d : ScatterDims ⟨2, ![C, B]⟩ ⟨2, ![M, 1]⟩ ⟨2, ![M, B]⟩)
    (huw : d.updateWindowDims = [1]) (hiw : d.insertedWindowDims = [0]) (j : (⟨2, ![M, B]⟩ : Shape).Idx) :
    d.window j 1 = (j 1).val := by
  have hm : (1 : Fin 2) ∈ d.sKept := List.mem_filter.2 ⟨List.mem_finRange _, by simp [hiw]⟩
  have hall : ∀ a ∈ d.updateWindowDims, a = 1 := by rw [huw]; simp
  unfold ScatterDims.window
  rw [dif_pos hm]
  exact val_congr j (hall _ (List.getElem_mem _))

/-- Rank 2: update entry `(p, q)` lands at `(c, b)` exactly when row `p`'s index word, read signed, is `c` and `q = b`. -/
private theorem resultIdx2 {C B M w : Nat} (d : ScatterDims ⟨2, ![C, B]⟩ ⟨2, ![M, 1]⟩ ⟨2, ![M, B]⟩)
    (huw : d.updateWindowDims = [1]) (hiw : d.insertedWindowDims = [0]) (hsd : d.scatterDimsToOperandDims = [0])
    (hiv : d.indexVectorDim = 1) (idx : IVec ⟨2, ![M, 1]⟩ w) (p : Fin M) (q : Fin B) (c : Fin C) (b : Fin B) :
    d.resultIdx? (ix2 p q) idx = some (ix2 c b) ↔ ((idx (ix2 p 0)).toInt = (c.val : Int) ∧ q = b) := by
  have hs0 := start2_0 d huw hsd hiv idx (ix2 p q)
  have hs1 := start2_1 d hsd idx (ix2 p q)
  have hw0 := window2_0 d hiw (ix2 p q)
  have hw1 := window2_1 d huw hiw (ix2 p q)
  change d.start (ix2 p q) idx 0 = (idx (ix2 p 0)).toInt at hs0
  change d.window (ix2 p q) 1 = q.val at hw1
  have hc := c.isLt
  have hq := q.isLt
  unfold ScatterDims.resultIdx?
  constructor
  · intro h
    split at h
    · rename_i hall
      have h0 := congrArg Fin.val (congrFun (Option.some.inj h) 0)
      have h1 := congrArg Fin.val (congrFun (Option.some.inj h) 1)
      change (d.start (ix2 p q) idx 0 + (d.window (ix2 p q) 0 : Int)).toNat = c.val at h0
      change (d.start (ix2 p q) idx 1 + (d.window (ix2 p q) 1 : Int)).toNat = b.val at h1
      have g0 := (hall 0).1
      rw [hs0, hw0] at h0 g0
      rw [hs1, hw1] at h1
      refine ⟨by omega, Fin.ext (by omega)⟩
    · cases h
  · rintro ⟨h, rfl⟩
    have hall : ∀ a, 0 ≤ d.start (ix2 p q) idx a + d.window (ix2 p q) a
        ∧ d.start (ix2 p q) idx a + d.window (ix2 p q) a < (⟨2, ![C, B]⟩ : Shape).size a := by
      intro a
      match a with
      | ⟨0, _⟩ =>
        change 0 ≤ d.start (ix2 p q) idx 0 + (d.window (ix2 p q) 0 : Int)
          ∧ d.start (ix2 p q) idx 0 + (d.window (ix2 p q) 0 : Int) < ((C : Nat) : Int)
        rw [hs0, hw0, h]
        omega
      | ⟨1, _⟩ =>
        change 0 ≤ d.start (ix2 p q) idx 1 + (d.window (ix2 p q) 1 : Int)
          ∧ d.start (ix2 p q) idx 1 + (d.window (ix2 p q) 1 : Int) < ((B : Nat) : Int)
        rw [hs1, hw1]
        omega
    rw [dif_pos hall]
    congr 1
    funext a
    match a with
    | ⟨0, _⟩ =>
      apply Fin.ext
      change (d.start (ix2 p q) idx 0 + (d.window (ix2 p q) 0 : Int)).toNat = c.val
      rw [hs0, hw0, h]
      omega
    | ⟨1, _⟩ =>
      apply Fin.ext
      change (d.start (ix2 p q) idx 1 + (d.window (ix2 p q) 1 : Int)).toNat = q.val
      rw [hs1, hw1]
      omega

/-- Rank-1 operand `[C]`, indices `[M,1]`, updates `[M]` (no window axis): row `c` receives the updates whose index is `c`. -/
theorem scatterAdd_rows1 {C M w : Nat} (d : ScatterDims ⟨1, ![C]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![C]⟩ : Shape).Idx → EReal) (idx : IVec ⟨2, ![M, 1]⟩ w) (upd : (⟨1, ![M]⟩ : Shape).Idx → EReal) (c : Fin C) :
    Ideal.hostScatterAdd d x idx upd (ix1 c)
      = x (ix1 c) + ∑ j : Fin M, if (idx (ix2 j 0)).toInt = (c.val : Int) then upd (ix1 j) else 0 := by
  unfold Ideal.hostScatterAdd
  congr 1
  rw [Finset.sum_filter]
  let e : (⟨1, ![M]⟩ : Shape).Idx ≃ Fin M :=
    { toFun := fun j => j 0, invFun := ix1, left_inv := fun j => (eq_ix1 j).symm, right_inv := fun _ => rfl }
  rw [← Equiv.sum_comp e.symm]
  apply Fintype.sum_congr
  intro j
  show (if d.resultIdx? (ix1 j) idx = some (ix1 c) then upd (ix1 j) else 0) = _
  simp only [resultIdx1 d huw hiw hsd hiv idx (ix1 j) c]
  rfl

/-- Rank-2 operand `[C,B]`, indices `[M,1]`, updates `[M,B]` (axis 1 the window): entry `(c, b)` receives column `b` of the
    update rows whose index is `c`. -/
theorem scatterAdd_rows2 {C B M w : Nat} (d : ScatterDims ⟨2, ![C, B]⟩ ⟨2, ![M, 1]⟩ ⟨2, ![M, B]⟩)
    (huw : d.updateWindowDims = [1]) (hiw : d.insertedWindowDims = [0]) (hsd : d.scatterDimsToOperandDims = [0])
    (hiv : d.indexVectorDim = 1)
    (x : (⟨2, ![C, B]⟩ : Shape).Idx → EReal) (idx : IVec ⟨2, ![M, 1]⟩ w) (upd : (⟨2, ![M, B]⟩ : Shape).Idx → EReal)
    (c : Fin C) (b : Fin B) :
    Ideal.hostScatterAdd d x idx upd (ix2 c b)
      = x (ix2 c b) + ∑ j : Fin M, if (idx (ix2 j 0)).toInt = (c.val : Int) then upd (ix2 j b) else 0 := by
  unfold Ideal.hostScatterAdd
  congr 1
  rw [Finset.sum_filter, sum_idx2]
  apply Fintype.sum_congr
  intro p
  simp only [resultIdx2 d huw hiw hsd hiv idx p _ c b]
  rw [Finset.sum_eq_single b]
  · simp
  · intro q _ hq
    rw [if_neg (fun h => hq h.2)]
  · intro h
    exact absurd (Finset.mem_univ b) h

/-- A sum over `Fin M`, `M = A·B`, as the row-major double sum: position `a·B + b`. -/
theorem sum_fin_rowMajor {A B M : Nat} (h : A * B = M) (f : Fin M → EReal) :
    ∑ j : Fin M, f j
      = ∑ a : Fin A, ∑ b : Fin B, f ⟨a.val * B + b.val, by
          have := a.isLt; have := b.isLt
          calc a.val * B + b.val < a.val * B + B := by omega
            _ = (a.val + 1) * B := by ring
            _ ≤ A * B := Nat.mul_le_mul_right B (by omega)
            _ = M := h⟩ := by
  subst h
  rw [← Equiv.sum_comp finProdFinEquiv f, Fintype.sum_prod_type]
  apply Fintype.sum_congr
  intro a
  apply Fintype.sum_congr
  intro b
  congr 1
  apply Fin.ext
  simp [finProdFinEquiv]
  ring

end Cert.LibScatter

end
-- ==== Proof.BlockSum.lean ====
/-
  The ordered sum of the four hidden blocks' partial sums, started from zero, is the sum over all 2048 hidden
  columns: column `512 j + h` is entry `h` of block `j`, and addition of extended reals is commutative and
  associative.  With it the two results of a row, accumulated block by block, are Spec.lean's row formulas.
-/
import proofs.«112866_j16827681866028_1_alg».proof.Proof.Spec
import proofs.«112866_j16827681866028_1_alg».proof.Proof.LibScatterAddRows

noncomputable section

open scoped BigOperators

namespace Cert.Resonant

/-- Zero, then the four blocks' sums added in order, is the sum over every hidden column. -/
theorem sum_hidden_blocks (f : Fin 2048 → EReal) :
    (((0 + ∑ h : Fin 512, f (hcol 0 h)) + ∑ h : Fin 512, f (hcol 1 h)) + ∑ h : Fin 512, f (hcol 2 h))
      + ∑ h : Fin 512, f (hcol 3 h) = ∑ H : Fin 2048, f H := by
  rw [Cert.LibScatter.sum_fin_rowMajor (A := 4) (B := 512) rfl f, Fin.sum_univ_four, zero_add]

/-- The real result of a row from the four blocks' contributions. -/
theorem outReal_of_blocks (x : Fin 512 → EReal) (t : Fin 64 → EReal) (Wu : Fin 512 → Fin 2048 → EReal)
    (w b : Fin 64 → Fin 2048 → EReal) (Wr : Fin 2048 → Fin 512 → EReal) (d : Fin 512) (T : Fin 4 → EReal)
    (hT : ∀ j : Fin 4, T j = ∑ h : Fin 512, (value x (fun k => Wu k (hcol j h))
      * gate t (fun p => w p (hcol j h)) (fun p => b p (hcol j h))) * Wr (hcol j h) d) :
    x d + ((((0 + T 0) + T 1) + T 2) + T 3) = outReal x t Wu w b Wr d := by
  unfold outReal
  rw [hT 0, hT 1, hT 2, hT 3]
  exact congrArg (x d + ·) (sum_hidden_blocks fun H =>
    (value x (fun k => Wu k H) * gate t (fun p => w p H) (fun p => b p H)) * Wr H d)

/-- The imaginary result of a row from the four blocks' contributions. -/
theorem outImag_of_blocks (xi : Fin 64 → EReal) (t : Fin 64 → EReal)
    (w b : Fin 64 → Fin 2048 → EReal) (Wi : Fin 2048 → Fin 64 → EReal) (p : Fin 64) (T : Fin 4 → EReal)
    (hT : ∀ j : Fin 4, T j = ∑ h : Fin 512, gate t (fun q => w q (hcol j h)) (fun q => b q (hcol j h)) * Wi (hcol j h) p) :
    xi p + ((((0 + T 0) + T 1) + T 2) + T 3) = outImag xi t w b Wi p := by
  unfold outImag
  rw [hT 0, hT 1, hT 2, hT 3]
  exact congrArg (xi p + ·) (sum_hidden_blocks fun H => gate t (fun q => w q H) (fun q => b q H) * Wi H p)

end Cert.Resonant

end
-- ==== Proof.KValue.lean ====
/-
  The result tiles at an entry, on the extended reals.

  At the last hidden block of row tile `q` (point `t = 4 q + 3`) the accumulators have been stepped through the four
  points `t - 3 … t` from the cleared tile, so at row `r` of the tile they hold zero plus the four blocks'
  contributions in order; point `t - 3 + j` works on row tile `q` and on hidden block `j`, whose entry `h` is hidden
  column `512 j + h`.  With the residual added this is Spec.lean's row formula of row `256 q + r` of the arrays the
  region finds (`BlockSum.lean`).
-/
import proofs.«112866_j16827681866028_1_alg».proof.Proof.KAccum
import proofs.«112866_j16827681866028_1_alg».proof.Proof.KStep
import proofs.«112866_j16827681866028_1_alg».proof.Proof.BlockSum

set_option maxRecDepth 16384

noncomputable section

open scoped BigOperators
open Idealize.ShloMosaic Idealize.ShloMosaic.TcCoe Idealize.SL.Sem

namespace Cert.KernelIdeal.TileValue

open Cert.KernelIdeal Cert.KernelIdeal.Gen Cert.KernelIdeal.Body Cert.KernelIdeal.Blocks Cert.KernelIdeal.Accum
open Cert.KernelIdeal.StepValue Idealize.ShloMosaic.ValueIdx Cert.Resonant

variable (m : (ℓ : Loc nD τ sig) → Buf (Elt Ideal) ℓ)

/-- Row `R` of the flattened batch, real result at column `d`, from the arrays the region finds. -/
def rowReal (c : Dev nD) (R : Fin 1024) (d : Fin 512) : EReal :=
  outReal (fun k => arrXr m c (ix2 R k)) (fun p => arrT m c (ix2 R p)) (fun k h => arrWu m c (ix2 k h))
    (fun p h => arrW m c (ix2 p h)) (fun p h => arrB m c (ix2 p h)) (fun h e => arrWr m c (ix2 h e)) d

/-- Row `R` of the flattened batch, imaginary result at column `p`, from the arrays the region finds. -/
def rowImag (c : Dev nD) (R : Fin 1024) (p : Fin 64) : EReal :=
  outImag (fun q => arrXi m c (ix2 R q)) (fun q => arrT m c (ix2 R q))
    (fun q h => arrW m c (ix2 q h)) (fun q h => arrB m c (ix2 q h)) (fun h q => arrWi m c (ix2 h q)) p

/-- Point `s = t - 3 + j` of the run that ends at `t` works on `t`'s row tile … -/
theorem rowOf_run (t s : Fin cfg0.N) (h3 : t.val % 4 = 3) (j : Fin 4) (hs : s.val = t.val - 3 + j.val) (r : Fin 256) :
    rowOf s r = rowOf t r := by
  apply Fin.ext
  show 256 * (s.val / 4) + r.val = 256 * (t.val / 4) + r.val
  have := j.isLt
  omega

/-- … and on hidden block `j`. -/
theorem colOf_run (t s : Fin cfg0.N) (h3 : t.val % 4 = 3) (j : Fin 4) (hs : s.val = t.val - 3 + j.val) (h : Fin 512) :
    colOf s h = hcol j h := by
  apply Fin.ext
  show 512 * (s.val % 4) + h.val = j.val * 512 + h.val
  have := j.isLt
  omega

/-- The real contribution of point `s = t - 3 + j` at `(r, d)`, in the arrays the region finds. -/
theorem real_contrib (c : Dev nD) (t s : Fin cfg0.N) (h3 : t.val % 4 = 3) (j : Fin 4) (hs : s.val = t.val - 3 + j.val)
    (r : Fin 256) (d : Fin 512) :
    (∑ h : Fin 512, (value (fun k => blk0 m c s (ix2 r k)) (fun k => blk5 m c s (ix2 k h))
        * gate (fun p => blk2 m c s (ix2 r p)) (fun p => blk3 m c s (ix2 p h)) (fun p => blk4 m c s (ix2 p h))) * blk6 m c s (ix2 h d))
      = ∑ h : Fin 512, (value (fun k => arrXr m c (ix2 (rowOf t r) k)) (fun k => arrWu m c (ix2 k (hcol j h)))
        * gate (fun p => arrT m c (ix2 (rowOf t r) p)) (fun p => arrW m c (ix2 p (hcol j h))) (fun p => arrB m c (ix2 p (hcol j h))))
        * arrWr m c (ix2 (hcol j h) d) := by
  refine Finset.sum_congr rfl fun h _ => ?_
  simp only [blk0_apply, blk2_apply, blk3_apply, blk4_apply, blk5_apply, blk6_apply, rowOf_run t s h3 j hs, colOf_run t s h3 j hs]

/-- The imaginary contribution of point `s = t - 3 + j` at `(r, p)`, in the arrays the region finds. -/
theorem imag_contrib (c : Dev nD) (t s : Fin cfg0.N) (h3 : t.val % 4 = 3) (j : Fin 4) (hs : s.val = t.val - 3 + j.val)
    (r : Fin 256) (p : Fin 64) :
    (∑ h : Fin 512, gate (fun q => blk2 m c s (ix2 r q)) (fun q => blk3 m c s (ix2 q h)) (fun q => blk4 m c s (ix2 q h)) * blk7 m c s (ix2 h p))
      = ∑ h : Fin 512, gate (fun q => arrT m c (ix2 (rowOf t r) q)) (fun q => arrW m c (ix2 q (hcol j h))) (fun q => arrB m c (ix2 q (hcol j h)))
        * arrWi m c (ix2 (hcol j h) p) := by
  refine Finset.sum_congr rfl fun h _ => ?_
  simp only [blk2_apply, blk3_apply, blk4_apply, blk7_apply, rowOf_run t s h3 j hs, colOf_run t s h3 j hs]

/-- The real result tile of row tile `t / 4`, at `(r, d)`. -/
theorem real_tile (c : Dev nD) (t : Fin cfg0.N) (h3 : t.val % 4 = 3) (r : Fin 256) (d : Fin 512) :
    (outsAt0 m c t.val t.isLt).1 (ix2 r d) = rowReal m c (rowOf t r) d := by
  have hN : t.val < 16 := lt_of_lt_of_eq t.isLt (show cfg0.N = 16 from N_0)
  have l1 : t.val - 1 < cfg0.N := pred_lt t.isLt
  have l2 : t.val - 1 - 1 < cfg0.N := pred_lt l1
  have l3 : t.val - 1 - 1 - 1 < cfg0.N := pred_lt l2
  rw [real_last m c t h3, resReal_apply,
    real_step m c t.val t.isLt, if_neg (by omega), stepReal_apply,
    real_step m c (t.val - 1) l1, if_neg (by omega), stepReal_apply,
    real_step m c (t.val - 1 - 1) l2, if_neg (by omega), stepReal_apply,
    real_step m c (t.val - 1 - 1 - 1) l3, if_pos (by omega), stepReal_apply,
    (show Pieces.zeroReal (F := Ideal) (ix2 r d) = 0 from zeroReal_apply _),
    real_contrib m c t ⟨t.val, t.isLt⟩ h3 3 (by show t.val = t.val - 3 + 3; omega) r d,
    real_contrib m c t ⟨t.val - 1, l1⟩ h3 2 (by show t.val - 1 = t.val - 3 + 2; omega) r d,
    real_contrib m c t ⟨t.val - 1 - 1, l2⟩ h3 1 (by show t.val - 1 - 1 = t.val - 3 + 1; omega) r d,
    real_contrib m c t ⟨t.val - 1 - 1 - 1, l3⟩ h3 0 (by show t.val - 1 - 1 - 1 = t.val - 3 + 0; omega) r d,
    blk0_apply]
  exact outReal_of_blocks (fun k => arrXr m c (ix2 (rowOf t r) k)) (fun p => arrT m c (ix2 (rowOf t r) p))
    (fun k h => arrWu m c (ix2 k h)) (fun p h => arrW m c (ix2 p h)) (fun p h => arrB m c (ix2 p h))
    (fun h e => arrWr m c (ix2 h e)) d
    (fun j => ∑ h : Fin 512, (value (fun k => arrXr m c (ix2 (rowOf t r) k)) (fun k => arrWu m c (ix2 k (hcol j h)))
      * gate (fun p => arrT m c (ix2 (rowOf t r) p)) (fun p => arrW m c (ix2 p (hcol j h))) (fun p => arrB m c (ix2 p (hcol j h))))
      * arrWr m c (ix2 (hcol j h) d))
    (fun j => rfl)

/-- The imaginary result tile of row tile `t / 4`, at `(r, p)`. -/
theorem imag_tile (c : Dev nD) (t : Fin cfg0.N) (h3 : t.val % 4 = 3) (r : Fin 256) (p : Fin 64) :
    (outsAt0 m c t.val t.isLt).2.1 (ix2 r p) = rowImag m c (rowOf t r) p := by
  have hN : t.val < 16 := lt_of_lt_of_eq t.isLt (show cfg0.N = 16 from N_0)
  have l1 : t.val - 1 < cfg0.N := pred_lt t.isLt
  have l2 : t.val - 1 - 1 < cfg0.N := pred_lt l1
  have l3 : t.val - 1 - 1 - 1 < cfg0.N := pred_lt l2
  rw [imag_last m c t h3, resImag_apply,
    imag_step m c t.val t.isLt, if_neg (by omega), stepImag_apply,
    imag_step m c (t.val - 1) l1, if_neg (by omega), stepImag_apply,
    imag_step m c (t.val - 1 - 1) l2, if_neg (by omega), stepImag_apply,
    imag_step m c (t.val - 1 - 1 - 1) l3, if_pos (by omega), stepImag_apply,
    (show Pieces.zeroImag (F := Ideal) (ix2 r p) = 0 from zeroImag_apply _),
    imag_contrib m c t ⟨t.val, t.isLt⟩ h3 3 (by show t.val = t.val - 3 + 3; omega) r p,
    imag_contrib m c t ⟨t.val - 1, l1⟩ h3 2 (by show t.val - 1 = t.val - 3 + 2; omega) r p,
    imag_contrib m c t ⟨t.val - 1 - 1, l2⟩ h3 1 (by show t.val - 1 - 1 = t.val - 3 + 1; omega) r p,
    imag_contrib m c t ⟨t.val - 1 - 1 - 1, l3⟩ h3 0 (by show t.val - 1 - 1 - 1 = t.val - 3 + 0; omega) r p,
    blk1_apply]
  exact outImag_of_blocks (fun q => arrXi m c (ix2 (rowOf t r) q)) (fun q => arrT m c (ix2 (rowOf t r) q))
    (fun q h => arrW m c (ix2 q h)) (fun q h => arrB m c (ix2 q h)) (fun h q => arrWi m c (ix2 h q)) p
    (fun j => ∑ h : Fin 512, gate (fun q => arrT m c (ix2 (rowOf t r) q)) (fun q => arrW m c (ix2 q (hcol j h))) (fun q => arrB m c (ix2 q (hcol j h)))
      * arrWi m c (ix2 (hcol j h) p))
    (fun j => rfl)

end Cert.KernelIdeal.TileValue

end
-- ==== Proof.KFinal.lean ====
/-
  The kernel program's run, read: after the region the two result arrays hold, row by row of the flattened batch, the
  row formulas of Spec.lean; the two reshapes after the region give them their batch axes back.

  Row tile `q` of a result array is written back once, by point `4 q + 3`, and the four row tiles cover the array.
-/
import proofs.«112866_j16827681866028_1_alg».proof.Proof.KValue
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Blocks Cert.KernelIdeal.TileValue Idealize.ShloMosaic.ValueIdx

variable (m : (ℓ : Loc nD τ sig) → Buf (Elt Ideal) ℓ) (ρ : Dev nD → PrngReg)

/-- The flattened real result: row `i 0`, column `i 1`. -/
def flatReal (c : Dev nD) : Vec Ideal S1024x512 .f32 := fun i => rowReal m c (i 0) (i 1)
/-- The flattened imaginary result. -/
def flatImag (c : Dev nD) : Vec Ideal S1024x64 .f32 := fun i => rowImag m c (i 0) (i 1)

theorem idx8 : ∀ t : Fin cfg0.N, win0_8.index t (0 : Fin 2) = t.val / 4 ∧ win0_8.index t (1 : Fin 2) = 0 :=
  (by decide +kernel : ∀ t : Fin grid0.N, _)
theorem idx9 : ∀ t : Fin cfg0.N, win0_9.index t (0 : Fin 2) = t.val / 4 ∧ win0_9.index t (1 : Fin 2) = 0 :=
  (by decide +kernel : ∀ t : Fin grid0.N, _)

theorem real_tile' (c : Dev nD) (t : Fin cfg0.N) (h3 : t.val % 4 = 3) (j : S256x512.Idx) :
    (outsAt0 m c t.val t.isLt).1 j = rowReal m c (rowOf t (j 0)) (j 1) := by
  obtain ⟨r, d, rfl⟩ : ∃ (r : Fin 256) (d : Fin 512), j = ix2 r d := ⟨j 0, j 1, eq_ix2 j⟩
  exact real_tile m c t h3 r d

theorem imag_tile' (c : Dev nD) (t : Fin cfg0.N) (h3 : t.val % 4 = 3) (j : S256x64.Idx) :
    (outsAt0 m c t.val t.isLt).2.1 j = rowImag m c (rowOf t (j 0)) (j 1) := by
  obtain ⟨r, p, rfl⟩ : ∃ (r : Fin 256) (p : Fin 64), j = ix2 r p := ⟨j 0, j 1, eq_ix2 j⟩
  exact imag_tile m c t h3 r p

/-- What a writing point writes back to the real result is its row tile of `flatReal`. -/
theorem flushed8_eq (c : Dev nD) (t : Fin cfg0.N) (hf : (cfg0.win 8).flush t = true) :
    (dats m 0 c).flushed 8 t = ((cfg0.win 8).blk t).view.read (Elt Ideal) (flatReal m c) := by
  have h3 : t.val % 4 = 3 := (flush0_8 t).mp hf
  obtain ⟨e0, e1⟩ := idx8 t
  show (cfg0.win 8).cut (grid0.coords t) ((dats m 0 c).after 8 t) = _
  rw [after0_8]
  funext j
  show (outsAt0 m c t.val t.isLt).1 j
    = rowReal m c ((((cfg0.win 8).blk t).view.emb j) 0) ((((cfg0.win 8).blk t).view.emb j) 1)
  refine (real_tile' m c t h3 j).trans ?_
  refine congrArg₂ (rowReal m c) (Fin.ext ?_) (Fin.ext ?_)
  · show 256 * (t.val / 4) + (j 0).val = win0_8.index t (0 : Fin 2) * 256 + 1 * (j 0).val
    rw [e0]; omega
  · show (j 1).val = win0_8.index t (1 : Fin 2) * 512 + 1 * (j 1).val
    rw [e1]; omega

/-- What a writing point writes back to the imaginary result is its row tile of `flatImag`. -/
theorem flushed9_eq (c : Dev nD) (t : Fin cfg0.N) (hf : (cfg0.win 9).flush t = true) :
    (dats m 0 c).flushed 9 t = ((cfg0.win 9).blk t).view.read (Elt Ideal) (flatImag m c) := by
  have h3 : t.val % 4 = 3 := (flush0_9 t).mp hf
  obtain ⟨e0, e1⟩ := idx9 t
  show (cfg0.win 9).cut (grid0.coords t) ((dats m 0 c).after 9 t) = _
  rw [after0_9]
  funext j
  show (outsAt0 m c t.val t.isLt).2.1 j
    = rowImag m c ((((cfg0.win 9).blk t).view.emb j) 0) ((((cfg0.win 9).blk t).view.emb j) 1)
  refine (imag_tile' m c t h3 j).trans ?_
  refine congrArg₂ (rowImag m c) (Fin.ext ?_) (Fin.ext ?_)
  · show 256 * (t.val / 4) + (j 0).val = win0_9.index t (0 : Fin 2) * 256 + 1 * (j 0).val
    rw [e0]; omega
  · show (j 1).val = win0_9.index t (1 : Fin 2) * 64 + 1 * (j 1).val
    rw [e1]; omega

/-- Row `i 0` of the real result lies in the tile point `4 (i 0 / 256) + 3` writes back. -/
theorem cover8 (i : S1024x512.Idx) :
    ∃ t : Fin cfg0.N, (cfg0.win 8).flush t = true ∧ i ∈ ((cfg0.win 8).blk t).view.set := by
  have hi0 : (i 0).val < 1024 := (i 0).isLt
  have hi1 : (i 1).val < 512 := (i 1).isLt
  have hlt : 4 * ((i 0).val / 256) + 3 < cfg0.N := by rw [show cfg0.N = 16 from N_0]; omega
  obtain ⟨e0, e1⟩ := idx8 ⟨4 * ((i 0).val / 256) + 3, hlt⟩
  have e0' : win0_8.index ⟨4 * ((i 0).val / 256) + 3, hlt⟩ (0 : Fin 2) = (4 * ((i 0).val / 256) + 3) / 4 := e0
  refine ⟨⟨4 * ((i 0).val / 256) + 3, hlt⟩, (flush0_8 _).mpr (by show (4 * ((i 0).val / 256) + 3) % 4 = 3; omega), ?_⟩
  show i ∈ ((View.whole main_v6_0).slice (win0_8.rect ⟨4 * ((i 0).val / 256) + 3, hlt⟩)).set
  rw [View.set_slice_whole, Rect.mem_set_unit]
  intro a
  match a with
  | ⟨0, _⟩ =>
    show win0_8.index ⟨4 * ((i 0).val / 256) + 3, hlt⟩ (0 : Fin 2) * 256 ≤ (i 0).val
      ∧ (i 0).val < win0_8.index ⟨4 * ((i 0).val / 256) + 3, hlt⟩ (0 : Fin 2) * 256 + 256
    rw [e0']; omega
  | ⟨1, _⟩ =>
    show win0_8.index ⟨4 * ((i 0).val / 256) + 3, hlt⟩ (1 : Fin 2) * 512 ≤ (i 1).val
      ∧ (i 1).val < win0_8.index ⟨4 * ((i 0).val / 256) + 3, hlt⟩ (1 : Fin 2) * 512 + 512
    rw [e1]; omega

theorem cover9 (i : S1024x64.Idx) :
    ∃ t : Fin cfg0.N, (cfg0.win 9).flush t = true ∧ i ∈ ((cfg0.win 9).blk t).view.set := by
  have hi0 : (i 0).val < 1024 := (i 0).isLt
  have hi1 : (i 1).val < 64 := (i 1).isLt
  have hlt : 4 * ((i 0).val / 256) + 3 < cfg0.N := by rw [show cfg0.N = 16 from N_0]; omega
  obtain ⟨e0, e1⟩ := idx9 ⟨4 * ((i 0).val / 256) + 3, hlt⟩
  have e0' : win0_9.index ⟨4 * ((i 0).val / 256) + 3, hlt⟩ (0 : Fin 2) = (4 * ((i 0).val / 256) + 3) / 4 := e0
  refine ⟨⟨4 * ((i 0).val / 256) + 3, hlt⟩, (flush0_9 _).mpr (by show (4 * ((i 0).val / 256) + 3) % 4 = 3; omega), ?_⟩
  show i ∈ ((View.whole main_v6_1).slice (win0_9.rect ⟨4 * ((i 0).val / 256) + 3, hlt⟩)).set
  rw [View.set_slice_whole, Rect.mem_set_unit]
  intro a
  match a with
  | ⟨0, _⟩ =>
    show win0_9.index ⟨4 * ((i 0).val / 256) + 3, hlt⟩ (0 : Fin 2) * 256 ≤ (i 0).val
      ∧ (i 0).val < win0_9.index ⟨4 * ((i 0).val / 256) + 3, hlt⟩ (0 : Fin 2) * 256 + 256
    rw [e0']; omega
  | ⟨1, _⟩ =>
    show win0_9.index ⟨4 * ((i 0).val / 256) + 3, hlt⟩ (1 : Fin 2) * 64 ≤ (i 1).val
      ∧ (i 1).val < win0_9.index ⟨4 * ((i 0).val / 256) + 3, hlt⟩ (1 : Fin 2) * 64 + 64
    rw [e1]; omega

/-- The real result array after the region. -/
theorem final8 (c : Dev nD) : (dats m 0 c).arrAt 8 cfg0.N = flatReal m c :=
  (dats m 0 c).arrAt_eq_of_cover 8 (flatReal m c) (flushed8_eq m c) (cover8)

/-- The imaginary result array after the region. -/
theorem final9 (c : Dev nD) : (dats m 0 c).arrAt 9 cfg0.N = flatImag m c :=
  (dats m 0 c).arrAt_eq_of_cover 9 (flatImag m c) (flushed9_eq m c) (cover9)

end Cert.KernelIdeal.Final

end
-- ==== Proof.Result.lean ====
/-
  The two results as whole arrays: entry `(b, l, ·)` is Spec.lean's row formula of row `(b, l)` of the arguments, the
  phase row being `x_imag[b, l, ·] · pos_freq[l, ·]`.  Both programs are shown to end at these two functions of their
  arguments.
-/
import proofs.«112866_j16827681866028_1_alg».proof.Proof.Spec

noncomputable section

namespace Cert.Resonant

open Idealize.ShloMosaic Idealize.ShloMosaic.ValueIdx

variable (xr : (⟨3, ![2, 512, 512]⟩ : Shape).Idx → EReal) (xi : (⟨3, ![2, 512, 64]⟩ : Shape).Idx → EReal)
  (pf : (⟨2, ![512, 64]⟩ : Shape).Idx → EReal) (Wu : (⟨2, ![512, 2048]⟩ : Shape).Idx → EReal)
  (W B : (⟨2, ![64, 2048]⟩ : Shape).Idx → EReal) (Wr : (⟨2, ![2048, 512]⟩ : Shape).Idx → EReal)
  (Wi : (⟨2, ![2048, 64]⟩ : Shape).Idx → EReal)

/-- The real result at `(b, l, d)`. -/
def realAt (bb : Fin 2) (l : Fin 512) (d : Fin 512) : EReal :=
  outReal (fun k => xr (ix3 bb l k)) (fun p => xi (ix3 bb l p) * pf (ix2 l p)) (fun k h => Wu (ix2 k h))
    (fun p h => W (ix2 p h)) (fun p h => B (ix2 p h)) (fun h e => Wr (ix2 h e)) d

/-- The imaginary result at `(b, l, p)`. -/
def imagAt (bb : Fin 2) (l : Fin 512) (p : Fin 64) : EReal :=
  outImag (fun q => xi (ix3 bb l q)) (fun q => xi (ix3 bb l q) * pf (ix2 l q)) (fun q h => W (ix2 q h))
    (fun q h => B (ix2 q h)) (fun h q => Wi (ix2 h q)) p

/-- The real result array. -/
def resultReal : (⟨3, ![2, 512, 512]⟩ : Shape).Idx → EReal := fun i => realAt xr xi pf Wu W B Wr (i 0) (i 1) (i 2)

/-- The imaginary result array. -/
def resultImag : (⟨3, ![2, 512, 64]⟩ : Shape).Idx → EReal := fun i => imagAt xi pf W B Wi (i 0) (i 1) (i 2)

end Cert.Resonant

end
-- ==== Proof.KRun.lean ====
/-
  The idealized kernel program's run, read: its two results are the result functions of Result.lean of its arguments.

  After the region the two flattened result arrays hold the row formulas in the arrays the region finds
  (`KFinal.lean`); those arrays are the flattened real and imaginary parts, the flattened phases
  `x_imag · pos_freq` and the five weight arguments themselves; and the two reshapes after the region read flattened
  row `512 b + l` at `(b, l)`.
-/
import proofs.«112866_j16827681866028_1_alg».proof.Proof.KFinal
import proofs.«112866_j16827681866028_1_alg».proof.Proof.Result
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem

namespace Cert.KernelIdeal.RunValue

open Cert.KernelIdeal Cert.KernelIdeal.Gen Cert.KernelIdeal.Blocks Cert.KernelIdeal.TileValue Cert.KernelIdeal.Final
open Idealize.ShloMosaic.ValueIdx Cert.Resonant

variable (m : (ℓ : Loc nD τ sig) → Buf (Elt Ideal) ℓ) (ρ : Dev nD → PrngReg)

/-- A row's real result in the program's arguments. -/
theorem rowReal_args (c : Dev nD) (R : Fin 1024) (d : Fin 512) :
    rowReal m c R d = realAt (argXr m c) (argXi m c) (argPf m c) (argWu m c) (argW m c) (argB m c) (argWr m c) (rowB R) (rowL R) d := by
  have e1 : (fun k => arrXr m c (ix2 R k)) = fun k => argXr m c (ix3 (rowB R) (rowL R) k) :=
    funext fun k => arrXr_apply m c R k
  have e2 : (fun p => arrT m c (ix2 R p)) = fun p => argXi m c (ix3 (rowB R) (rowL R) p) * argPf m c (ix2 (rowL R) p) :=
    funext fun p => arrT_apply m c R p
  unfold rowReal realAt
  rw [e1, e2, arrW_eq, arrB_eq, arrWu_eq, arrWr_eq]

/-- A row's imaginary result in the program's arguments. -/
theorem rowImag_args (c : Dev nD) (R : Fin 1024) (p : Fin 64) :
    rowImag m c R p = imagAt (argXi m c) (argPf m c) (argW m c) (argB m c) (argWi m c) (rowB R) (rowL R) p := by
  have e1 : (fun q => arrXi m c (ix2 R q)) = fun q => argXi m c (ix3 (rowB R) (rowL R) q) :=
    funext fun q => arrXi_apply m c R q
  have e2 : (fun q => arrT m c (ix2 R q)) = fun q => argXi m c (ix3 (rowB R) (rowL R) q) * argPf m c (ix2 (rowL R) q) :=
    funext fun q => arrT_apply m c R q
  unfold rowImag imagAt
  rw [e1, e2, arrW_eq, arrB_eq, arrWi_eq]

/-- The real result after the last reshape. -/
theorem tail7 (c : Dev nD) : Pipeline.afterTail₀ cfgs (dats m) 0 (V0 m) [hostOps1] c main_v7
    = shapeCast S2x512x512 (flatReal m c) shapeCasts_S1024x512_S2x512x512 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = flatReal m c := (Pipeline.withArrays_arr spec0 launch0.win.arr_inj c _ _ 8).trans (final8 m c)
  funext i
  show shapeCast S2x512x512 (Pipeline.withArrays (cfgs 0).spec c (V0 m c) (fun w => (dats m 0 c).arrAt w (cfgs 0).N)
    (Proc.devRef .tc main_v6_0)) shapeCasts_S1024x512_S2x512x512 i = _
  rw [e]

/-- The imaginary result after the last reshape. -/
theorem tail8 (c : Dev nD) : Pipeline.afterTail₀ cfgs (dats m) 0 (V0 m) [hostOps1] c main_v8
    = shapeCast S2x512x64 (flatImag m c) shapeCasts_S1024x64_S2x512x64 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6_1)
      = flatImag m c := (Pipeline.withArrays_arr spec0 launch0.win.arr_inj c _ _ 9).trans (final9 m c)
  funext i
  show shapeCast S2x512x64 (Pipeline.withArrays (cfgs 0).spec c (V0 m c) (fun w => (dats m 0 c).arrAt w (cfgs 0).N)
    (Proc.devRef .tc main_v6_1)) shapeCasts_S1024x64_S2x512x64 i = _
  rw [e]

/-- Flattened row `512 b + l` is `(b, l)`. -/
theorem row_of_flat (bb : Fin 2) (l : Fin 512) (hR : 512 * bb.val + l.val < 1024) :
    rowB ⟨512 * bb.val + l.val, hR⟩ = bb ∧ rowL ⟨512 * bb.val + l.val, hR⟩ = l := by
  have := l.isLt
  exact ⟨Fin.ext (by show (512 * bb.val + l.val) / 512 = bb.val; omega), Fin.ext (by show (512 * bb.val + l.val) % 512 = l.val; omega)⟩

/-- The real result array, in the program's arguments. -/
theorem result7 (c : Dev nD) : Pipeline.afterTail₀ cfgs (dats m) 0 (V0 m) [hostOps1] c main_v7
    = resultReal (argXr m c) (argXi m c) (argPf m c) (argWu m c) (argW m c) (argB m c) (argWr m c) := by
  rw [tail7]
  funext i
  obtain ⟨bb, l, d, rfl⟩ : ∃ (bb : Fin 2) (l : Fin 512) (d : Fin 512), i = ix3 bb l d := ⟨i 0, i 1, i 2, eq_ix3 i⟩
  have hR : 512 * bb.val + l.val < 1024 := by have := bb.isLt; have := l.isLt; omega
  refine (shapeCast_apply _ _ (ix3 bb l d) (ix2 ⟨512 * bb.val + l.val, hR⟩ d) ?_).trans ?_
  · rw [Shape.rowMajor_val_three, Shape.rowMajor_val_two]
    show (512 * bb.val + l.val) * 512 + d.val = (bb.val * 512 + l.val) * 512 + d.val
    omega
  · show rowReal m c ⟨512 * bb.val + l.val, hR⟩ d = _
    rw [rowReal_args, (row_of_flat bb l hR).1, (row_of_flat bb l hR).2]
    rfl

/-- The imaginary result array, in the program's arguments. -/
theorem result8 (c : Dev nD) : Pipeline.afterTail₀ cfgs (dats m) 0 (V0 m) [hostOps1] c main_v8
    = resultImag (argXi m c) (argPf m c) (argW m c) (argB m c) (argWi m c) := by
  rw [tail8]
  funext i
  obtain ⟨bb, l, p, rfl⟩ : ∃ (bb : Fin 2) (l : Fin 512) (p : Fin 64), i = ix3 bb l p := ⟨i 0, i 1, i 2, eq_ix3 i⟩
  have hR : 512 * bb.val + l.val < 1024 := by have := bb.isLt; have := l.isLt; omega
  refine (shapeCast_apply _ _ (ix3 bb l p) (ix2 ⟨512 * bb.val + l.val, hR⟩ p) ?_).trans ?_
  · rw [Shape.rowMajor_val_three, Shape.rowMajor_val_two]
    show (512 * bb.val + l.val) * 64 + p.val = (bb.val * 512 + l.val) * 64 + p.val
    omega
  · show rowImag m c ⟨512 * bb.val + l.val, hR⟩ p = _
    rw [rowImag_args, (row_of_flat bb l hR).1, (row_of_flat bb l hR).2]
    rfl

/-- Every weakly fair execution of the idealized kernel program ends with its two results at the result functions of
    its arguments, the arguments unchanged. -/
theorem run : θ_run defs (onTc (τ := τ) (main (F := Ideal))) ⟨m, fun _ => 0, ρ⟩ (fun r => ∀ c : Dev nD,
      r.2.mem ((c.tc : Thread nD τ).loc main_v7)
        = resultReal (argXr m c) (argXi m c) (argPf m c) (argWu m c) (argW m c) (argB m c) (argWr m c)
      ∧ r.2.mem ((c.tc : Thread nD τ).loc main_v8) = resultImag (argXi m c) (argPf m c) (argW m c) (argB m c) (argWi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v7 (Pipeline.mem_restRefs_of main_v7 (by decide) (by decide))).trans (result7 m c),
      ((h c).2 main_v8 (Pipeline.mem_restRefs_of main_v8 (by decide) (by decide))).trans (result8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.RunValue

end
-- ==== Proof.RefValue.lean ====
/-
  The reference, read at an entry: each of its two results at `(b, l, ·)` is the row formula of Spec.lean
  of row `(b, l)` of the arguments, the phase row being `x_imag[b, l, ·] · pos_freq[l, ·]`.
-/
import proofs.«112866_j16827681866028_1_alg».proof.Proof.Gen.ReferenceIdeal.Run
import proofs.«112866_j16827681866028_1_alg».proof.Proof.Gen.ReferenceIdeal.Read
import proofs.«112866_j16827681866028_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Resonant

/-- The cosine stage at `(bb, l, k, h)`: the cosine of the phase `x_imag[bb, l, k] · pos_freq[l, k]` times the
    frequency weight `w[k, h]`, plus the bias `b[k, h]`. -/
theorem cos_at (x1 : FVec Ideal S2x512x64 .f32) (x2 : FVec Ideal S512x64 .f32) (x4 x5 : FVec Ideal S64x2048 .f32)
    (bb : Fin 2) (l : Fin 512) (k : Fin 64) (h : Fin 2048) :
    val_main_v11 (F := Ideal) x1 x2 x4 x5 (ix4 bb l k h)
      = Ideal.cos (x1 (ix3 bb l k) * x2 (ix2 l k) * x4 (ix2 k h) + x5 (ix2 k h)) := by
  have e1 : idx_main_v3 (idx_main_v5 (ix4 bb l k h)) = ix3 bb l k :=
    funext fun a => Fin.ext (by match a with | ⟨0, _⟩ => rfl | ⟨1, _⟩ => rfl | ⟨2, _⟩ => rfl)
  have e2 : idx_main_v0 (idx_main_v1 (ix3 bb l k)) = ix2 l k :=
    funext fun a => Fin.ext (by match a with | ⟨0, _⟩ => rfl | ⟨1, _⟩ => rfl)
  have e3 : idx_main_v4 (idx_main_v6 (ix4 bb l k h)) = ix2 k h :=
    funext fun a => Fin.ext (by match a with | ⟨0, _⟩ => rfl | ⟨1, _⟩ => rfl)
  have e4 : idx_main_v8 (idx_main_v9 (ix4 bb l k h)) = ix2 k h :=
    funext fun a => Fin.ext (by match a with | ⟨0, _⟩ => rfl | ⟨1, _⟩ => rfl)
  rw [val_main_v11_apply, val_main_v10_apply, val_main_v7_apply, val_main_v5_apply, val_main_v3_apply, e1,
    val_main_v2_apply, val_main_v1_apply, val_main_v0_apply, e2, val_main_v6_apply, val_main_v4_apply, e3,
    val_main_v9_apply, val_main_v8_apply, e4,
    Ideal.hostUnary_cos_def, Ideal.addf_def, Ideal.mulf_def, Ideal.mulf_def]

/-- The scaled cosine sum at `(bb, l, h)` is the gate of row `(bb, l)` at hidden column `h`: the reduction starts
    from the zero word, which is the real number zero, and runs over the 64 phases. -/
theorem gate_at (x1 : FVec Ideal S2x512x64 .f32) (x2 : FVec Ideal S512x64 .f32) (x4 x5 : FVec Ideal S64x2048 .f32)
    (bb : Fin 2) (l : Fin 512) (h : Fin 2048) :
    val_main_v14 (F := Ideal) x1 x2 x4 x5 (ix3 bb l h)
      = gate (fun q => x1 (ix3 bb l q) * x2 (ix2 l q)) (fun q => x4 (ix2 q h)) (fun q => x5 (ix2 q h)) := by
  have e : ∀ k : Fin 64, idx_main_v12 (ix3 bb l h) k = ix4 bb l k h := fun k =>
    funext fun a => Fin.ext (by match a with | ⟨0, _⟩ => rfl | ⟨1, _⟩ => rfl | ⟨2, _⟩ => rfl | ⟨3, _⟩ => rfl)
  rw [val_main_v14_apply, val_main_v12_apply, val_main_v13_apply, val_main_cst_0_apply, val_main_cst_apply,
    Ideal.mulf_def, Ideal.ofBits_def, Ideal.ofBits_def, Ideal.ofBits_zero_f32, zero_add]
  unfold gate
  refine congrArg (· * scale) (Finset.sum_congr rfl fun k _ => ?_)
  rw [e k, cos_at]

/-- The up-projection at `(bb, l, h)` is the value of row `(bb, l)` at hidden column `h`. -/
theorem value_at (x0 : FVec Ideal S2x512x512 .f32) (x3 : FVec Ideal S512x2048 .f32)
    (bb : Fin 2) (l : Fin 512) (h : Fin 2048) :
    val_main_v15 (F := Ideal) x0 x3 (ix3 bb l h)
      = value (fun k => x0 (ix3 bb l k)) (fun k => x3 (ix2 k h)) := by
  have el : ∀ k : Fin 512, lidx_main_v15 (ix3 bb l h) k = ix3 bb l k := fun k =>
    funext fun a => Fin.ext (by match a with | ⟨0, _⟩ => rfl | ⟨1, _⟩ => rfl | ⟨2, _⟩ => rfl)
  have er : ∀ k : Fin 512, ridx_main_v15 (ix3 bb l h) k = ix2 k h := fun k =>
    funext fun a => Fin.ext (by match a with | ⟨0, _⟩ => rfl | ⟨1, _⟩ => rfl)
  rw [val_main_v15_apply]
  unfold value
  refine Finset.sum_congr rfl fun k _ => ?_
  rw [el k, er k]

/-- The reference's real result at `(bb, l, d)`. -/
theorem ref_real (x0 : FVec Ideal S2x512x512 .f32) (x1 : FVec Ideal S2x512x64 .f32) (x2 : FVec Ideal S512x64 .f32)
    (x3 : FVec Ideal S512x2048 .f32) (x4 x5 : FVec Ideal S64x2048 .f32) (x6 : FVec Ideal S2048x512 .f32)
    (bb : Fin 2) (l : Fin 512) (d : Fin 512) :
    val_main_v18 (F := Ideal) x0 x1 x2 x3 x4 x5 x6 (ix3 bb l d)
      = outReal (fun k => x0 (ix3 bb l k)) (fun p => x1 (ix3 bb l p) * x2 (ix2 l p)) (fun k h => x3 (ix2 k h))
          (fun p h => x4 (ix2 p h)) (fun p h => x5 (ix2 p h)) (fun h e => x6 (ix2 h e)) d := by
  have el : ∀ h : Fin 2048, lidx_main_v17 (ix3 bb l d) h = ix3 bb l h := fun h =>
    funext fun a => Fin.ext (by match a with | ⟨0, _⟩ => rfl | ⟨1, _⟩ => rfl | ⟨2, _⟩ => rfl)
  have er : ∀ h : Fin 2048, ridx_main_v17 (ix3 bb l d) h = ix2 h d := fun h =>
    funext fun a => Fin.ext (by match a with | ⟨0, _⟩ => rfl | ⟨1, _⟩ => rfl)
  rw [val_main_v18_apply, val_main_v17_apply, Ideal.addf_def]
  unfold outReal
  refine congrArg (x0 (ix3 bb l d) + ·) (Finset.sum_congr rfl fun h _ => ?_)
  rw [el h, er h, val_main_v16_apply, Ideal.mulf_def, value_at, gate_at]

/-- The reference's imaginary result at `(bb, l, p)`. -/
theorem ref_imag (x1 : FVec Ideal S2x512x64 .f32) (x2 : FVec Ideal S512x64 .f32)
    (x4 x5 : FVec Ideal S64x2048 .f32) (x7 : FVec Ideal S2048x64 .f32)
    (bb : Fin 2) (l : Fin 512) (p : Fin 64) :
    val_main_v20 (F := Ideal) x1 x2 x4 x5 x7 (ix3 bb l p)
      = outImag (fun q => x1 (ix3 bb l q)) (fun q => x1 (ix3 bb l q) * x2 (ix2 l q))
          (fun q h => x4 (ix2 q h)) (fun q h => x5 (ix2 q h)) (fun h q => x7 (ix2 h q)) p := by
  have el : ∀ h : Fin 2048, lidx_main_v19 (ix3 bb l p) h = ix3 bb l h := fun h =>
    funext fun a => Fin.ext (by match a with | ⟨0, _⟩ => rfl | ⟨1, _⟩ => rfl | ⟨2, _⟩ => rfl)
  have er : ∀ h : Fin 2048, ridx_main_v19 (ix3 bb l p) h = ix2 h p := fun h =>
    funext fun a => Fin.ext (by match a with | ⟨0, _⟩ => rfl | ⟨1, _⟩ => rfl)
  rw [val_main_v20_apply, val_main_v19_apply, Ideal.addf_def]
  unfold outImag
  refine congrArg (x1 (ix3 bb l p) + ·) (Finset.sum_congr rfl fun h _ => ?_)
  rw [el h, er h, gate_at]

end Cert.ReferenceIdeal.RefValue

end
-- ==== Proof.RefResult.lean ====
/-
  The reference's two results as whole arrays: the result functions of Result.lean of its arguments.
-/
import proofs.«112866_j16827681866028_1_alg».proof.Proof.RefValue
import proofs.«112866_j16827681866028_1_alg».proof.Proof.Result

noncomputable section

namespace Cert.ReferenceIdeal.RefValue

open Cert.ReferenceIdeal Cert.ReferenceIdeal.Gen Cert.ReferenceIdeal.Read Idealize.ShloMosaic Idealize.ShloMosaic.ValueIdx Cert.Resonant

theorem ref_resultReal (x0 : FVec Ideal S2x512x512 .f32) (x1 : FVec Ideal S2x512x64 .f32) (x2 : FVec Ideal S512x64 .f32)
    (x3 : FVec Ideal S512x2048 .f32) (x4 x5 : FVec Ideal S64x2048 .f32) (x6 : FVec Ideal S2048x512 .f32) :
    val_main_v18 (F := Ideal) x0 x1 x2 x3 x4 x5 x6 = resultReal x0 x1 x2 x3 x4 x5 x6 := by
  funext i
  obtain ⟨bb, l, d, rfl⟩ : ∃ (bb : Fin 2) (l : Fin 512) (d : Fin 512), i = ix3 bb l d := ⟨i 0, i 1, i 2, eq_ix3 i⟩
  rw [ref_real]
  rfl

theorem ref_resultImag (x1 : FVec Ideal S2x512x64 .f32) (x2 : FVec Ideal S512x64 .f32)
    (x4 x5 : FVec Ideal S64x2048 .f32) (x7 : FVec Ideal S2048x64 .f32) :
    val_main_v20 (F := Ideal) x1 x2 x4 x5 x7 = resultImag x1 x2 x4 x5 x7 := by
  funext i
  obtain ⟨bb, l, p, rfl⟩ : ∃ (bb : Fin 2) (l : Fin 512) (p : Fin 64), i = ix3 bb l p := ⟨i 0, i 1, i 2, eq_ix3 i⟩
  rw [ref_imag]
  rfl

end Cert.ReferenceIdeal.RefValue

end
-- ==== Proof.lean ====
/-
  The certificate of the resonant feed-forward kernel against its jnp reference.

  The kernel tiles the 1024 rows of the flattened batch by 256 and the 2048 hidden columns by 512.  For each row
  tile it walks the four hidden blocks: per block it forms the gate tile (64 cosines of phase · weight + bias,
  summed and scaled by 1/8), the up-projection tile, their product, and adds the two down-projections of the block to
  two accumulators cleared at the first block; at the last block it writes residual plus accumulator.  The
  reference computes, for each row, the sums over all 2048 hidden columns at once.

  On the extended reals a change of float format is the identity, a matrix product into a zero tile is the plain sum
  of products, and addition is commutative and associative, so the four blocks' partial sums added in order from zero
  are the sum over all hidden columns: both programs end at the same two functions of their arguments
  (`Result.lean`).  No finiteness of the inputs is used.  The ideal pass rewrote nothing, so the kernel's
  idealization is its own text and `preserves` is trivial.

  The three frames are the generated ones (the reference's frame is its generated run with the results dropped).
-/
import proofs.«112866_j16827681866028_1_alg».proof.Defs
import proofs.«112866_j16827681866028_1_alg».proof.Proof.Gen.Kernel.Frame
import proofs.«112866_j16827681866028_1_alg».proof.Proof.Gen.KernelIdeal.Frame
import proofs.«112866_j16827681866028_1_alg».proof.Proof.Gen.ReferenceIdeal.Run
import proofs.«112866_j16827681866028_1_alg».proof.Proof.Gen.ReferenceIdeal.Read
import proofs.«112866_j16827681866028_1_alg».proof.Proof.Gen.Pre_finite_inputs
import proofs.«112866_j16827681866028_1_alg».proof.Proof.KRun
import proofs.«112866_j16827681866028_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end at the result functions of Result.lean of arguments that agree. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.ref_resultReal,
      (hagree c).1, (hagree c).2.1, (hagree c).2.2.1, (hagree c).2.2.2.1, (hagree c).2.2.2.2.1, (hagree c).2.2.2.2.2.1,
      (hagree c).2.2.2.2.2.2.1]
  · rw [Cert.ReferenceIdeal.Read.val_main_v20_eq, Cert.ReferenceIdeal.RefValue.ref_resultImag,
      (hagree c).2.1, (hagree c).2.2.1, (hagree c).2.2.2.2.1, (hagree c).2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
